-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x128 : Shape := ⟨2, ![4096, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64 .f32) (main_arg5 : FVec F S64x64 .f32) (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S8192x4096 .f32) (main_arg1 : FVec F S4096x128 .f32) (main_arg2 : FVec F S128 .f32) (main_arg3 : FVec F S128x64 .f32) (main_arg4 : FVec F S64 .f32) (main_arg5 : FVec F S64x64 .f32) (main_arg6 : FVec F S64 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_v13 main_v16
-- ==== Kernel.lean ====
abbrev S8192x4096 : Shape := ⟨2, ![8192, 4096]⟩
abbrev S4096x128 : Shape := ⟨2, ![4096, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x128 : Shape := ⟨2, ![1, 128]⟩
abbrev S1x64 : Shape := ⟨2, ![1, 64]⟩
abbrev S8192x64 : Shape := ⟨2, ![8192, 64]⟩
abbrev S1024x1024 : Shape := ⟨2, ![1024, 1024]⟩
abbrev S1024x64 : Shape := ⟨2, ![1024, 64]⟩
abbrev S1024x128 : Shape := ⟨2, ![1024, 128]⟩
abbrev S1024 : Shape := ⟨1, ![1024]⟩
abbrev S1024x1 : Shape := ⟨2, ![1024, 1]⟩

abbrev nBuf : Space → Nat
  | .hbm => 12
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S4096x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x128, .f32⟩
  | .hbm, ⟨8, _⟩ => ⟨S1x64, .f32⟩
  | .hbm, ⟨9, _⟩ => ⟨S1x64, .f32⟩
  | .hbm, ⟨10, _⟩ => ⟨S8192x64, .f32⟩
  | .hbm, ⟨11, _⟩ => ⟨S8192x64, .f32⟩
  | .local _ .vmem, ⟨0, _⟩ => ⟨S1024x1024, .f32⟩
  | .local _ .vmem, ⟨1, _⟩ => ⟨S1024x1024, .f32⟩
  | .local _ .vmem, ⟨2, _⟩ => ⟨S4096x128, .f32⟩
  | .local _ .vmem, ⟨3, _⟩ => ⟨S1x128, .f32⟩
  | .local _ .vmem, ⟨4, _⟩ => ⟨S128x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S1024x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 4], ![false, false]⟩

def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : Index := Scalar.indexCast v0
  let c0 : Index := 0#32
  ![v1.toNat, 0]
def k0_cond3 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S128_S1x128 : S128.ShapeCasts S1x128
  shapeCasts_S64_S1x64 : S64.ShapeCasts S1x64
  h_S1024x128 : 0 < S1024x128.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1024x128_S1024x128_0_0 : ∀ a, (![0, 0] : Fin 2 → Nat) a + S1024x128.size a ≤ S1024x128.size a
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S64x64_S64x64_0_0 : ∀ a, (![0, 0] : Fin 2 → Nat) a + S64x64.size a ≤ S64x64.size a
  h_S64x64 : 0 < S64x64.numel
  reduces_S1024x64_S1024 : S1024x64.Reduces [1] S1024
  shapeCasts_S1024_S1024x1 : S1024.ShapeCasts S1024x1
  broadcasts_S1024x1_S1024x64 : S1024x1.Broadcasts S1024x64
  inb_S1024x64_S1024x64_0_0 : ∀ a, (![0, 0] : Fin 2 → Nat) a + S1024x64.size a ≤ S1024x64.size a
  h_S1024x64 : 0 < S1024x64.numel
  dot_S1024x1024_S1024x128_S1024x128_1_0_0_1_n_n_wf : DotDims.WF S1024x1024 S1024x128 S1024x128 [1] [0] [0] [1] [] []
  dot_S1024x128_S128x64_S1024x64_1_0_0_1_n_n_wf : DotDims.WF S1024x128 S128x64 S1024x64 [1] [0] [0] [1] [] []
  dot_S1024x64_S64x64_S1024x64_1_0_0_1_n_n_wf : DotDims.WF S1024x64 S64x64 S1024x64 [1] [0] [0] [1] [] []
  hrank0 : 0 < grid0.rank
  k0_off1_inb : ∀ i : grid0.Coords, ∀ a, (k0_off1 i) a + S1024x128.size a ≤ S4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .f32 = 32 ∨ (Rect.block (s := S4096x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x64.size a ≤ S8192x64.size a
  hwx0_7 : ∀ i : grid0.Coords, EltTy.bits .f32 = 32 ∨ (Rect.block (s := S8192x64) S1024x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x64.size a ≤ S8192x64.size a
  hwx0_8 : ∀ i : grid0.Coords, EltTy.bits .f32 = 32 ∨ (Rect.block (s := S8192x64) S1024x64.size (cc0_transform_8 i) (hinb0_8 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S1024x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S1024x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond3 i == 1#1) | 8 => fun i => !(k0_cond3 i == 1#1) | ⟨_ + 9, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x128 : Shape := ⟨2, ![4096, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S8192x128 : Shape := ⟨2, ![8192, 128]⟩
abbrev S1x128 : Shape := ⟨2, ![1, 128]⟩
abbrev S_ : Shape := ⟨0, ![]⟩
abbrev S8192x64 : Shape := ⟨2, ![8192, 64]⟩
abbrev S1x64 : Shape := ⟨2, ![1, 64]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S8192x128, .f32⟩
  | .hbm, ⟨8, _⟩ => ⟨S1x128, .f32⟩
  | .hbm, ⟨9, _⟩ => ⟨S8192x128, .f32⟩
  | .hbm, ⟨10, _⟩ => ⟨S8192x128, .f32⟩
  | .hbm, ⟨11, _⟩ => ⟨S_, .f32⟩
  | .hbm, ⟨12, _⟩ => ⟨S8192x128, .f32⟩
  | .hbm, ⟨13, _⟩ => ⟨S8192x128, .f32⟩
  | .hbm, ⟨14, _⟩ => ⟨S8192x64, .f32⟩
  | .hbm, ⟨15, _⟩ => ⟨S1x64, .f32⟩
  | .hbm, ⟨16, _⟩ => ⟨S8192x64, .f32⟩
  | .hbm, ⟨17, _⟩ => ⟨S8192x64, .f32⟩
  | .hbm, ⟨18, _⟩ => ⟨S_, .f32⟩
  | .hbm, ⟨19, _⟩ => ⟨S8192x64, .f32⟩
  | .hbm, ⟨20, _⟩ => ⟨S8192x64, .f32⟩
  | .hbm, ⟨21, _⟩ => ⟨S8192x64, .f32⟩
  | .hbm, ⟨22, _⟩ => ⟨S1x64, .f32⟩
  | .hbm, ⟨23, _⟩ => ⟨S8192x64, .f32⟩
  | .hbm, ⟨24, _⟩ => ⟨S8192x64, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S8192x1, .f32⟩
  | .hbm, ⟨31, _⟩ => ⟨S8192x64, .f32⟩
  | .hbm, ⟨32, _⟩ => ⟨S8192x64, .f32⟩
  | .hbm, ⟨33, _⟩ => ⟨S8192x64, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1, .f32⟩
  | .hbm, ⟨38, _⟩ => ⟨S8192x64, .f32⟩
  | .hbm, ⟨39, _⟩ => ⟨S8192x64, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call2_cst : Ref sig .tc := ⟨.hbm, 25, rfl⟩
abbrev main_call2_v0 : Ref sig .tc := ⟨.hbm, 26, rfl⟩
abbrev main_call2_cst_0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_call2_v5 : Ref sig .tc := ⟨.hbm, 32, rfl⟩
abbrev main_call2_v6 : Ref sig .tc := ⟨.hbm, 33, rfl⟩
abbrev main_call2_cst_1 : Ref sig .tc := ⟨.hbm, 34, rfl⟩
abbrev main_call2_v7 : Ref sig .tc := ⟨.hbm, 35, rfl⟩
abbrev main_call2_v8 : Ref sig .tc := ⟨.hbm, 36, rfl⟩
abbrev main_call2_v9 : Ref sig .tc := ⟨.hbm, 37, rfl⟩
abbrev main_call2_v10 : Ref sig .tc := ⟨.hbm, 38, rfl⟩
abbrev main_v14 : Ref sig .tc := ⟨.hbm, 39, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  reducesTo_S8192x64_S8192_d1 : S8192x64.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  dot_S8192x4096_S4096x128_S8192x128_1_0_0_1_n_n_wf : DotDims.WF S8192x4096 S4096x128 S8192x128 [1] [0] [0] [1] [] []
  dot_S8192x128_S128x64_S8192x64_1_0_0_1_n_n_wf : DotDims.WF S8192x128 S128x64 S8192x64 [1] [0] [0] [1] [] []
  dot_S8192x64_S64x64_S8192x64_1_0_0_1_n_n_wf : DotDims.WF S8192x64 S64x64 S8192x64 [1] [0] [0] [1] [] []

variable [Facts₀]

def dot_S8192x4096_S4096x128_S8192x128_1_0_0_1_n_n : DotDims S8192x4096 S4096x128 S8192x128 where
  lhsContracting := [1]
  rhsContracting := [0]
  lhsNonContracting := [0]
  rhsNonContracting := [1]
  lhsBatch := []
  rhsBatch := []
  wf := dot_S8192x4096_S4096x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

class Facts : Prop extends Facts₀ where

variable [Facts]
-- ==== Proof.BitsGrid.lean ====
/-
  The grid of the fused call and the body's three branches over it.

  The grid is 8 row tiles by 4 column tiles of the state array, walked row tile by row tile; point `t` has column
  tile `t % 4`. The body resets its accumulator where the column tile is 0, adds to it where it is not, and finishes
  the row tile (the two small layers and the log-probabilities) where it is 3. The two result windows are stored
  only at the finishing points, and only there written back.
-/
import proofs.«149963_g51273319579809_fold_wed_c4_702_21_alg».proof.Proof.Gen.Kernel.Frame
import proofs.«149963_g51273319579809_fold_wed_c4_702_21_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- The first branch (`k == 0`): the accumulator is reset to this point's partial product. -/
abbrev cond1 (i : grid0.Coords) : Prop :=
  (Scalar.cmpi .ne (Scalar.extui (Scalar.cmpi .eq (BitVec.ofNat 32 (i 1).val) 0#32)) 0#32) = 1#1
theorem hcond1 : ∀ t : Fin cfg0.N, cond1 (grid0.coords t) ↔ t.val % 4 = 0 :=
  (by decide +kernel : ∀ t : Fin grid0.N, cond1 (grid0.coords t) ↔ t.val % 4 = 0)

/-- The second branch (`k != 0`): the partial product is added to the accumulator. -/
abbrev cond2 (i : grid0.Coords) : Prop :=
  (Scalar.cmpi .ne (Scalar.extui (Scalar.cmpi .ne (BitVec.ofNat 32 (i 1).val) 0#32)) 0#32) = 1#1
theorem hcond2 : ∀ t : Fin cfg0.N, cond2 (grid0.coords t) ↔ ¬ t.val % 4 = 0 :=
  (by decide +kernel : ∀ t : Fin grid0.N, cond2 (grid0.coords t) ↔ ¬ t.val % 4 = 0)

/-- The third branch (`k == 3`): the row tile is finished and both results stored. -/
abbrev cond3 (i : grid0.Coords) : Prop := k0_cond3 i = 1#1
theorem hcond3 : ∀ t : Fin cfg0.N, cond3 (grid0.coords t) ↔ t.val % 4 = 3 :=
  (by decide +kernel : ∀ t : Fin grid0.N, cond3 (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
/-- Off the finishing points result window 7 is idle and is not written back. -/
theorem idle7 : ∀ t : Fin cfg0.N, ¬cond3 (grid0.coords t) → cfg0.idle 7 (grid0.coords t) = true := by decide +kernel
theorem noFlush7 : ∀ t : Fin cfg0.N, ¬cond3 (grid0.coords t) → (cfg0.win 7).flush t = false := by decide +kernel
/-- At a finishing point it is live. -/
theorem live7 : ∀ t : Fin cfg0.N, cond3 (grid0.coords t) → cfg0.idle 7 (grid0.coords t) = false := by decide +kernel
/-- Off the finishing points result window 8 is idle and is not written back. -/
theorem idle8 : ∀ t : Fin cfg0.N, ¬cond3 (grid0.coords t) → cfg0.idle 8 (grid0.coords t) = true := by decide +kernel
theorem noFlush8 : ∀ t : Fin cfg0.N, ¬cond3 (grid0.coords t) → (cfg0.win 8).flush t = false := by decide +kernel
/-- At a finishing point it is live. -/
theorem live8 : ∀ t : Fin cfg0.N, cond3 (grid0.coords t) → cfg0.idle 8 (grid0.coords t) = false := by decide +kernel

/-! ## The memrefs the body is called with -/

abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x64 .f32 := win0_8.stage (cfg0.slots t 8)
abbrev hs8 (t : Fin cfg0.N) : (ms8 t).IsWhole := hstage0_8 ((cfg0.slots t 8).cast nbuf0_8)
/-- The accumulator: a scratch buffer of the kernel's own, carried from point to point. -/
abbrev scM : Memref sig .tc .vmem S1024x128 .f32 := Memref.whole cc0_scratch0
abbrev VS : View sig .tc .vmem S1024x128 .f32 := scM.view
/-- One staging buffer of each result window, through which its contents are stated. -/
abbrev VO7 : View sig .tc .vmem S1024x64 .f32 := (Memref.whole cc0_stg7_0 : Memref sig .tc .vmem S1024x64 .f32).view
abbrev VO8 : View sig .tc .vmem S1024x64 .f32 := (Memref.whole cc0_stg8_0 : Memref sig .tc .vmem S1024x64 .f32).view

/-- The region's class invariant with the accumulator as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Body

end
-- ==== Proof.BitsRunReset.lean ====
/-
  The body at a point whose column tile is 0: it loads this point's rows of the first weight matrix and its tile of the
  state array, and stores their product over the whole accumulator, whatever the accumulator held; the result windows
  are left as they were.
-/
import proofs.«149963_g51273319579809_fold_wed_c4_702_21_alg».proof.Proof.BitsGrid

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runReset (c : Dev nD) (i : grid0.Coords) (arg2 : Memref sig .tc .vmem S1024x1024 .f32) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1024x64 .f32) (harg9 : arg9.IsWhole) (arg10 : Memref sig .tc .vmem S1024x64 .f32) (harg10 : arg10.IsWhole) (arg11 : Memref sig .tc .vmem S1024x128 .f32) (harg11 : arg11.IsWhole) (hc1 : cond1 i) (hc2 : ¬cond2 i) (hc3 : ¬cond3 i)
    (x0 : Vec F S1024x1024 .f32) (x1 : Vec F S4096x128 .f32) (x2 : Vec F S1x128 .f32) (x3 : Vec F S128x64 .f32) (x4 : Vec F S1x64 .f32) (x5 : Vec F S64x64 .f32) (x6 : Vec F S1x64 .f32) :
    Σ' (L7 : List (View.Piece (Elt F) S1024x64 .f32)) (L8 : List (View.Piece (Elt F) S1024x64 .f32)), { LS : List (View.Piece (Elt F) S1024x128 .f32) //
      ∀ (xi7 : Vec F S1024x64 .f32) (xi8 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K } := by
  refine ⟨[], [], ?_, fun xi7 xi8 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS

end Cert.Kernel.Body

end
-- ==== Proof.BitsRunAdd.lean ====
/-
  The body at a point whose column tile is 1 or 2: the accumulator, at what the point before left in it, takes this
  point's partial product added on; the result windows are left as they were.
-/
import proofs.«149963_g51273319579809_fold_wed_c4_702_21_alg».proof.Proof.BitsRunReset

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runAdd (c : Dev nD) (i : grid0.Coords) (arg2 : Memref sig .tc .vmem S1024x1024 .f32) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1024x64 .f32) (harg9 : arg9.IsWhole) (arg10 : Memref sig .tc .vmem S1024x64 .f32) (harg10 : arg10.IsWhole) (arg11 : Memref sig .tc .vmem S1024x128 .f32) (harg11 : arg11.IsWhole) (hc1 : ¬cond1 i) (hc2 : cond2 i) (hc3 : ¬cond3 i)
    (x0 : Vec F S1024x1024 .f32) (x1 : Vec F S4096x128 .f32) (x2 : Vec F S1x128 .f32) (x3 : Vec F S128x64 .f32) (x4 : Vec F S1x64 .f32) (x5 : Vec F S64x64 .f32) (x6 : Vec F S1x64 .f32) (xs : Vec F S1024x128 .f32) :
    Σ' (L7 : List (View.Piece (Elt F) S1024x64 .f32)) (L8 : List (View.Piece (Elt F) S1024x64 .f32)), { LS : List (View.Piece (Elt F) S1024x128 .f32) //
      ∀ (xi7 : Vec F S1024x64 .f32) (xi8 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K } := by
  refine ⟨[], [], ?_, fun xi7 xi8 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS

end Cert.Kernel.Body

end
-- ==== Proof.BitsRunFinish.lean ====
/-
  The body at a point whose column tile is 3: the last partial product is added to the accumulator, and from the
  finished accumulator the two small layers, the logits and the log-probabilities are computed and stored over the
  whole of the two result windows, whatever those held.
-/
import proofs.«149963_g51273319579809_fold_wed_c4_702_21_alg».proof.Proof.BitsRunAdd

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFinish (c : Dev nD) (i : grid0.Coords) (arg2 : Memref sig .tc .vmem S1024x1024 .f32) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1024x64 .f32) (harg9 : arg9.IsWhole) (arg10 : Memref sig .tc .vmem S1024x64 .f32) (harg10 : arg10.IsWhole) (arg11 : Memref sig .tc .vmem S1024x128 .f32) (harg11 : arg11.IsWhole) (hc1 : ¬cond1 i) (hc2 : cond2 i) (hc3 : cond3 i)
    (x0 : Vec F S1024x1024 .f32) (x1 : Vec F S4096x128 .f32) (x2 : Vec F S1x128 .f32) (x3 : Vec F S128x64 .f32) (x4 : Vec F S1x64 .f32) (x5 : Vec F S64x64 .f32) (x6 : Vec F S1x64 .f32) (xs : Vec F S1024x128 .f32) :
    Σ' (L7 : List (View.Piece (Elt F) S1024x64 .f32)) (L8 : List (View.Piece (Elt F) S1024x64 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS

end Cert.Kernel.Body

end
-- ==== Proof.BitsFrame.lean ====
/-
  The frame of the fused call: what the accumulator and the two result buffers hold after each grid point, and that
  the body, run at every point on what the pipeline hands it, leaves exactly that.

  After a point of column tile 0 the accumulator holds what the reset left; after a point of column tile 1, 2 or 3
  what the addition left over the contents of the point before; at a point of column tile 3 the two result buffers
  hold what the finishing branch stored, computed from the accumulator as just updated. Off those points the result
  windows are idle: what their buffers hold there is never read and never written back.
-/
import proofs.«149963_g51273319579809_fold_wed_c4_702_21_alg».proof.Proof.BitsRunFinish

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The runs at a grid point -/

/-- The reset run at a point of column tile 0, on that point's staging memrefs and input blocks. -/
def runResetAt (c : Dev nD) (t : Fin cfg0.N) (h0 : t.val % 4 = 0) :=
  runReset (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) ((hcond1 t).mpr h0) (fun h => (hcond2 t).mp h h0) (fun h => by have := (hcond3 t).mp h; omega) (iblk m c 0 t) (iblk m c 1 t) (iblk m c 2 t) (iblk m c 3 t) (iblk m c 4 t) (iblk m c 5 t) (iblk m c 6 t)

/-- The adding run at a point of column tile 1 or 2, over accumulator contents `xs`. -/
def runAddAt (c : Dev nD) (t : Fin cfg0.N) (h0 : ¬ t.val % 4 = 0) (h3 : ¬ t.val % 4 = 3) (xs : Vec F S1024x128 .f32) :=
  runAdd (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (fun h => h0 ((hcond1 t).mp h)) ((hcond2 t).mpr h0) (fun h => h3 ((hcond3 t).mp h)) (iblk m c 0 t) (iblk m c 1 t) (iblk m c 2 t) (iblk m c 3 t) (iblk m c 4 t) (iblk m c 5 t) (iblk m c 6 t) xs

/-- The finishing run at a point of column tile 3, over accumulator contents `xs`. -/
def runFinishAt (c : Dev nD) (t : Fin cfg0.N) (h0 : ¬ t.val % 4 = 0) (h3 : t.val % 4 = 3) (xs : Vec F S1024x128 .f32) :=
  runFinish (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (fun h => h0 ((hcond1 t).mp h)) ((hcond2 t).mpr h0) ((hcond3 t).mpr h3) (iblk m c 0 t) (iblk m c 1 t) (iblk m c 2 t) (iblk m c 3 t) (iblk m c 4 t) (iblk m c 5 t) (iblk m c 6 t) xs

/-! ## Each run's stores cover what it writes -/

theorem scoverReset (c : Dev nD) (t : Fin cfg0.N) (h0 : t.val % 4 = 0) (y : S1024x128.Idx) :
    ∃ pc ∈ (runResetAt m c t h0).2.2.1, y ∈ pc.1.set :=
  View.cover_of_tiledL (runResetAt m c t h0).2.2.1 S1024x128.size (by sl_kernel_rfl) y

theorem scoverAdd (c : Dev nD) (t : Fin cfg0.N) (h0 : ¬ t.val % 4 = 0) (h3 : ¬ t.val % 4 = 3) (xs : Vec F S1024x128 .f32) (y : S1024x128.Idx) :
    ∃ pc ∈ (runAddAt m c t h0 h3 xs).2.2.1, y ∈ pc.1.set :=
  View.cover_of_tiledL (runAddAt m c t h0 h3 xs).2.2.1 S1024x128.size (by sl_kernel_rfl) y

theorem scoverFinish (c : Dev nD) (t : Fin cfg0.N) (h0 : ¬ t.val % 4 = 0) (h3 : t.val % 4 = 3) (xs : Vec F S1024x128 .f32) (y : S1024x128.Idx) :
    ∃ pc ∈ (runFinishAt m c t h0 h3 xs).2.2.1, y ∈ pc.1.set :=
  View.cover_of_tiledL (runFinishAt m c t h0 h3 xs).2.2.1 S1024x128.size (by sl_kernel_rfl) y

theorem cover7 (c : Dev nD) (t : Fin cfg0.N) (h0 : ¬ t.val % 4 = 0) (h3 : t.val % 4 = 3) (xs : Vec F S1024x128 .f32) (y : S1024x64.Idx) :
    ∃ pc ∈ (runFinishAt m c t h0 h3 xs).1, y ∈ pc.1.set :=
  View.cover_of_tiledL (runFinishAt m c t h0 h3 xs).1 S1024x64.size (by sl_kernel_rfl) y

theorem cover8 (c : Dev nD) (t : Fin cfg0.N) (h0 : ¬ t.val % 4 = 0) (h3 : t.val % 4 = 3) (xs : Vec F S1024x128 .f32) (y : S1024x64.Idx) :
    ∃ pc ∈ (runFinishAt m c t h0 h3 xs).2.1, y ∈ pc.1.set :=
  View.cover_of_tiledL (runFinishAt m c t h0 h3 xs).2.1 S1024x64.size (by sl_kernel_rfl) y

/-! ## What each run leaves -/

/-- What the reset leaves in the accumulator. -/
def resetAt (c : Dev nD) (t : Fin cfg0.N) (h0 : t.val % 4 = 0) : Vec F S1024x128 .f32 :=
  VS.read (Elt F) (VS.writes (Elt F) VS.junk (runResetAt m c t h0).2.2.1)
/-- What the addition leaves in it, over `xs`. -/
def addAt (c : Dev nD) (t : Fin cfg0.N) (h0 : ¬ t.val % 4 = 0) (h3 : ¬ t.val % 4 = 3) (xs : Vec F S1024x128 .f32) : Vec F S1024x128 .f32 :=
  VS.read (Elt F) (VS.writes (Elt F) VS.junk (runAddAt m c t h0 h3 xs).2.2.1)
/-- What the finishing point leaves in it, over `xs`. -/
def finishAt (c : Dev nD) (t : Fin cfg0.N) (h0 : ¬ t.val % 4 = 0) (h3 : t.val % 4 = 3) (xs : Vec F S1024x128 .f32) : Vec F S1024x128 .f32 :=
  VS.read (Elt F) (VS.writes (Elt F) VS.junk (runFinishAt m c t h0 h3 xs).2.2.1)
/-- The logits block the finishing point stores. -/
def logitsAt (c : Dev nD) (t : Fin cfg0.N) (h0 : ¬ t.val % 4 = 0) (h3 : t.val % 4 = 3) (xs : Vec F S1024x128 .f32) : Vec F S1024x64 .f32 :=
  VO7.read (Elt F) (VO7.writes (Elt F) VO7.junk (runFinishAt m c t h0 h3 xs).1)
/-- The log-probabilities block it stores. -/
def logProbsAt (c : Dev nD) (t : Fin cfg0.N) (h0 : ¬ t.val % 4 = 0) (h3 : t.val % 4 = 3) (xs : Vec F S1024x128 .f32) : Vec F S1024x64 .f32 :=
  VO8.read (Elt F) (VO8.writes (Elt F) VO8.junk (runFinishAt m c t h0 h3 xs).2.1)
/-- A result buffer where its window is idle: a placeholder nothing reads. -/
def rest7 : Vec F S1024x64 .f32 := VO7.read (Elt F) VO7.junk
def rest8 : Vec F S1024x64 .f32 := VO8.read (Elt F) VO8.junk

/-! ## Point by point -/

/-- The two result buffers and the accumulator after the body at point `n`. -/
def outsAt (c : Dev nD) : (n : ℕ) → n < cfg0.N → Vec F S1024x64 .f32 × Vec F S1024x64 .f32 × Vec F S1024x128 .f32
  | 0, hn => (rest7, rest8, resetAt m c ⟨0, hn⟩ (Nat.zero_mod _))
  | n + 1, hn =>
    if h0 : (n + 1) % 4 = 0 then (rest7, rest8, resetAt m c ⟨n + 1, hn⟩ h0)
    else if h3 : (n + 1) % 4 = 3 then
      (logitsAt m c ⟨n + 1, hn⟩ h0 h3 (outsAt c n (Nat.lt_of_succ_lt hn)).2.2, logProbsAt m c ⟨n + 1, hn⟩ h0 h3 (outsAt c n (Nat.lt_of_succ_lt hn)).2.2,
        finishAt m c ⟨n + 1, hn⟩ h0 h3 (outsAt c n (Nat.lt_of_succ_lt hn)).2.2)
    else (rest7, rest8, addAt m c ⟨n + 1, hn⟩ h0 h3 (outsAt c n (Nat.lt_of_succ_lt hn)).2.2)

theorem outsAt_reset (c : Dev nD) (t : Fin cfg0.N) (h0 : t.val % 4 = 0) :
    outsAt m c t.val t.isLt = (rest7, rest8, resetAt m c t h0) := by
  obtain ⟨n, hn⟩ := t
  cases n with
  | zero => exact rfl
  | succ n => exact dif_pos h0

/-- The accumulator's contents before point `t`, when `t` is not the first point of its row tile. -/
abbrev prevAcc (c : Dev nD) (t : Fin cfg0.N) : Vec F S1024x128 .f32 :=
  (outsAt m c (t.val - 1) (Nat.lt_of_le_of_lt (Nat.sub_le _ _) t.isLt)).2.2

theorem outsAt_add (c : Dev nD) (t : Fin cfg0.N) (h0 : ¬ t.val % 4 = 0) (h3 : ¬ t.val % 4 = 3) :
    outsAt m c t.val t.isLt = (rest7, rest8, addAt m c t h0 h3 (prevAcc m c t)) := by
  obtain ⟨n, hn⟩ := t
  cases n with
  | zero => exact absurd (Nat.zero_mod 4) h0
  | succ n => exact (dif_neg h0).trans (dif_neg h3)

theorem outsAt_finish (c : Dev nD) (t : Fin cfg0.N) (h0 : ¬ t.val % 4 = 0) (h3 : t.val % 4 = 3) :
    outsAt m c t.val t.isLt = (logitsAt m c t h0 h3 (prevAcc m c t), logProbsAt m c t h0 h3 (prevAcc m c t), finishAt m c t h0 h3 (prevAcc m c t)) := by
  obtain ⟨n, hn⟩ := t
  cases n with
  | zero => exact absurd (Nat.zero_mod 4) h0
  | succ n => exact (dif_neg h0).trans (dif_pos h3)

/-- The region's invariant before position `n`: the class's before the first point, afterwards the accumulator at what
    the point before left and the generator register at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2.2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t.val t.isLt).1
    | ⟨8, _⟩ => (outsAt m c t.val t.isLt).2.1
    | ⟨_ + 9, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (outsAt m c t.val t.isLt).1 := by dsimp only [dats]
theorem after_8 (c : Dev nD) (t : Fin cfg0.N) : (dats m 0 c).after 8 t = (outsAt m c t.val t.isLt).2.1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [show (dats m 0 c).leavesExact 4 t = owns (c : Thread nD τ) (ms4 t) fullShare ((dats m 0 c).after 4 t) from by
    unfold Dat.leavesExact; rw [live4 t], after_4]
  rw [show (dats m 0 c).leavesExact 5 t = owns (c : Thread nD τ) (ms5 t) fullShare ((dats m 0 c).after 5 t) from by
    unfold Dat.leavesExact; rw [live5 t], after_5]
  rw [show (dats m 0 c).leavesExact 6 t = owns (c : Thread nD τ) (ms6 t) fullShare ((dats m 0 c).after 6 t) from by
    unfold Dat.leavesExact; rw [live6 t], after_6]
  by_cases h0 : t.val % 4 = 0
  · have hc3 : ¬cond3 (grid0.coords t) := fun h => by have := (hcond3 t).mp h; omega
    rw [Dat.leavesExact_idle (dats m 0 c) 7 t (idle7 t hc3) (noFlush7 t hc3), Dat.leavesExact_idle (dats m 0 c) 8 t (idle8 t hc3) (noFlush8 t hc3)]
    rw [outsAt_reset m c t h0]
    unfold resetAt; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runResetAt m c t h0).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, ⟨%es, HS⟩⟩
      isplitl [HS Hg]
      · isplitl [HS]
        · unfold owns; iexists _; isplitr
          swap; · iexact HS
          ipureintro; exact View.read_writes_of_cover _ _ _ _ _ (scoverReset m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runResetAt m c t h0).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexists _; iexact HS
      iintro ⟨H0, H1, H2, H3, H4, H5, H6, H7, H8, ⟨%es, HS⟩⟩
      isplitl [HS Hg]
      · isplitl [HS]
        · unfold owns; iexists _; isplitr
          swap; · iexact HS
          ipureintro; exact View.read_writes_of_cover _ _ _ _ _ (scoverReset m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
  · have hz : t.val ≠ 0 := fun h => h0 (by rw [h])
    by_cases h3 : t.val % 4 = 3
    · have hc3 : cond3 (grid0.coords t) := (hcond3 t).mpr h3
      rw [show (dats m 0 c).leavesExact 7 t = owns (c : Thread nD τ) (ms7 t) fullShare ((dats m 0 c).after 7 t) from by
        unfold Dat.leavesExact; rw [live7 t hc3], after_7]
      rw [show (dats m 0 c).leavesExact 8 t = owns (c : Thread nD τ) (ms8 t) fullShare ((dats m 0 c).after 8 t) from by
        unfold Dat.leavesExact; rw [live8 t hc3], after_8]
      rw [outsAt_finish m c t h0 h3]
      unfold logitsAt logProbsAt finishAt; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runFinishAt m c t h0 h3 (prevAcc m c t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS]; · iexact HS
      iintro ⟨H0, H1, H2, H3, H4, H5, H6, ⟨%e7, H7⟩, ⟨%e8, H8⟩, ⟨%es, HS⟩⟩
      isplitl [HS Hg]
      · isplitl [HS]
        · unfold owns; iexists _; isplitr
          swap; · iexact HS
          ipureintro; exact View.read_writes_of_cover _ _ _ _ _ (scoverFinish m c t h0 h3 (prevAcc m c t))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover7 m c t h0 h3 (prevAcc m c t))
      unfold owns; iexists _; isplitr
      swap; · iexact H8
      ipureintro; exact View.read_writes_of_cover _ _ _ _ _ (cover8 m c t h0 h3 (prevAcc m c t))
    · have hc3 : ¬cond3 (grid0.coords t) := fun h => h3 ((hcond3 t).mp h)
      rw [Dat.leavesExact_idle (dats m 0 c) 7 t (idle7 t hc3) (noFlush7 t hc3), Dat.leavesExact_idle (dats m 0 c) 8 t (idle8 t hc3) (noFlush8 t hc3)]
      rw [outsAt_add m c t h0 h3]
      unfold addAt; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runAddAt m c t h0 h3 (prevAcc m c t)).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, ⟨%es, HS⟩⟩
      isplitl [HS Hg]
      · isplitl [HS]
        · unfold owns; iexists _; isplitr
          swap; · iexact HS
          ipureintro; exact View.read_writes_of_cover _ _ _ _ _ (scoverAdd m c t h0 h3 (prevAcc m c t))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of the program terminates without a fault, each array of the call holding what the
    proof data says after the last point and every other buffer what it held when the call was entered. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to the end and leaves its seven argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Body

end
-- ==== Proof.IdealGrid.lean ====
/-
  The grid of the fused call and the body's three branches over it.

  The grid is 8 row tiles by 4 column tiles of the state array, walked row tile by row tile; point `t` has column
  tile `t % 4`. The body resets its accumulator where the column tile is 0, adds to it where it is not, and finishes
  the row tile (the two small layers and the log-probabilities) where it is 3. The two result windows are stored
  only at the finishing points, and only there written back.
-/
import proofs.«149963_g51273319579809_fold_wed_c4_702_21_alg».proof.Proof.Gen.KernelIdeal.Frame
import proofs.«149963_g51273319579809_fold_wed_c4_702_21_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- The first branch (`k == 0`): the accumulator is reset to this point's partial product. -/
abbrev cond1 (i : grid0.Coords) : Prop :=
  (Scalar.cmpi .ne (Scalar.extui (Scalar.cmpi .eq (BitVec.ofNat 32 (i 1).val) 0#32)) 0#32) = 1#1
theorem hcond1 : ∀ t : Fin cfg0.N, cond1 (grid0.coords t) ↔ t.val % 4 = 0 :=
  (by decide +kernel : ∀ t : Fin grid0.N, cond1 (grid0.coords t) ↔ t.val % 4 = 0)

/-- The second branch (`k != 0`): the partial product is added to the accumulator. -/
abbrev cond2 (i : grid0.Coords) : Prop :=
  (Scalar.cmpi .ne (Scalar.extui (Scalar.cmpi .ne (BitVec.ofNat 32 (i 1).val) 0#32)) 0#32) = 1#1
theorem hcond2 : ∀ t : Fin cfg0.N, cond2 (grid0.coords t) ↔ ¬ t.val % 4 = 0 :=
  (by decide +kernel : ∀ t : Fin grid0.N, cond2 (grid0.coords t) ↔ ¬ t.val % 4 = 0)

/-- The third branch (`k == 3`): the row tile is finished and both results stored. -/
abbrev cond3 (i : grid0.Coords) : Prop := k0_cond3 i = 1#1
theorem hcond3 : ∀ t : Fin cfg0.N, cond3 (grid0.coords t) ↔ t.val % 4 = 3 :=
  (by decide +kernel : ∀ t : Fin grid0.N, cond3 (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
/-- Off the finishing points result window 7 is idle and is not written back. -/
theorem idle7 : ∀ t : Fin cfg0.N, ¬cond3 (grid0.coords t) → cfg0.idle 7 (grid0.coords t) = true := by decide +kernel
theorem noFlush7 : ∀ t : Fin cfg0.N, ¬cond3 (grid0.coords t) → (cfg0.win 7).flush t = false := by decide +kernel
/-- At a finishing point it is live. -/
theorem live7 : ∀ t : Fin cfg0.N, cond3 (grid0.coords t) → cfg0.idle 7 (grid0.coords t) = false := by decide +kernel
/-- Off the finishing points result window 8 is idle and is not written back. -/
theorem idle8 : ∀ t : Fin cfg0.N, ¬cond3 (grid0.coords t) → cfg0.idle 8 (grid0.coords t) = true := by decide +kernel
theorem noFlush8 : ∀ t : Fin cfg0.N, ¬cond3 (grid0.coords t) → (cfg0.win 8).flush t = false := by decide +kernel
/-- At a finishing point it is live. -/
theorem live8 : ∀ t : Fin cfg0.N, cond3 (grid0.coords t) → cfg0.idle 8 (grid0.coords t) = false := by decide +kernel

/-! ## The memrefs the body is called with -/

abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x64 .f32 := win0_8.stage (cfg0.slots t 8)
abbrev hs8 (t : Fin cfg0.N) : (ms8 t).IsWhole := hstage0_8 ((cfg0.slots t 8).cast nbuf0_8)
/-- The accumulator: a scratch buffer of the kernel's own, carried from point to point. -/
abbrev scM : Memref sig .tc .vmem S1024x128 .f32 := Memref.whole cc0_scratch0
abbrev VS : View sig .tc .vmem S1024x128 .f32 := scM.view
/-- One staging buffer of each result window, through which its contents are stated. -/
abbrev VO7 : View sig .tc .vmem S1024x64 .f32 := (Memref.whole cc0_stg7_0 : Memref sig .tc .vmem S1024x64 .f32).view
abbrev VO8 : View sig .tc .vmem S1024x64 .f32 := (Memref.whole cc0_stg8_0 : Memref sig .tc .vmem S1024x64 .f32).view

/-- The region's class invariant with the accumulator as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Body

end
-- ==== Proof.IdealRunReset.lean ====
/-
  The body at a point whose column tile is 0: it loads this point's rows of the first weight matrix and its tile of the
  state array, and stores their product over the whole accumulator, whatever the accumulator held; the result windows
  are left as they were.
-/
import proofs.«149963_g51273319579809_fold_wed_c4_702_21_alg».proof.Proof.IdealGrid

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runReset (c : Dev nD) (i : grid0.Coords) (arg2 : Memref sig .tc .vmem S1024x1024 .f32) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1024x64 .f32) (harg9 : arg9.IsWhole) (arg10 : Memref sig .tc .vmem S1024x64 .f32) (harg10 : arg10.IsWhole) (arg11 : Memref sig .tc .vmem S1024x128 .f32) (harg11 : arg11.IsWhole) (hc1 : cond1 i) (hc2 : ¬cond2 i) (hc3 : ¬cond3 i)
    (x0 : Vec F S1024x1024 .f32) (x1 : Vec F S4096x128 .f32) (x2 : Vec F S1x128 .f32) (x3 : Vec F S128x64 .f32) (x4 : Vec F S1x64 .f32) (x5 : Vec F S64x64 .f32) (x6 : Vec F S1x64 .f32) :
    Σ' (L7 : List (View.Piece (Elt F) S1024x64 .f32)) (L8 : List (View.Piece (Elt F) S1024x64 .f32)), { LS : List (View.Piece (Elt F) S1024x128 .f32) //
      ∀ (xi7 : Vec F S1024x64 .f32) (xi8 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K } := by
  refine ⟨[], [], ?_, fun xi7 xi8 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS

end Cert.KernelIdeal.Body

end
-- ==== Proof.IdealRunAdd.lean ====
/-
  The body at a point whose column tile is 1 or 2: the accumulator, at what the point before left in it, takes this
  point's partial product added on; the result windows are left as they were.
-/
import proofs.«149963_g51273319579809_fold_wed_c4_702_21_alg».proof.Proof.IdealRunReset

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runAdd (c : Dev nD) (i : grid0.Coords) (arg2 : Memref sig .tc .vmem S1024x1024 .f32) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1024x64 .f32) (harg9 : arg9.IsWhole) (arg10 : Memref sig .tc .vmem S1024x64 .f32) (harg10 : arg10.IsWhole) (arg11 : Memref sig .tc .vmem S1024x128 .f32) (harg11 : arg11.IsWhole) (hc1 : ¬cond1 i) (hc2 : cond2 i) (hc3 : ¬cond3 i)
    (x0 : Vec F S1024x1024 .f32) (x1 : Vec F S4096x128 .f32) (x2 : Vec F S1x128 .f32) (x3 : Vec F S128x64 .f32) (x4 : Vec F S1x64 .f32) (x5 : Vec F S64x64 .f32) (x6 : Vec F S1x64 .f32) (xs : Vec F S1024x128 .f32) :
    Σ' (L7 : List (View.Piece (Elt F) S1024x64 .f32)) (L8 : List (View.Piece (Elt F) S1024x64 .f32)), { LS : List (View.Piece (Elt F) S1024x128 .f32) //
      ∀ (xi7 : Vec F S1024x64 .f32) (xi8 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K } := by
  refine ⟨[], [], ?_, fun xi7 xi8 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS

end Cert.KernelIdeal.Body

end
-- ==== Proof.IdealRunFinish.lean ====
/-
  The body at a point whose column tile is 3: the last partial product is added to the accumulator, and from the
  finished accumulator the two small layers, the logits and the log-probabilities are computed and stored over the
  whole of the two result windows, whatever those held.
-/
import proofs.«149963_g51273319579809_fold_wed_c4_702_21_alg».proof.Proof.IdealRunAdd

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFinish (c : Dev nD) (i : grid0.Coords) (arg2 : Memref sig .tc .vmem S1024x1024 .f32) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1024x64 .f32) (harg9 : arg9.IsWhole) (arg10 : Memref sig .tc .vmem S1024x64 .f32) (harg10 : arg10.IsWhole) (arg11 : Memref sig .tc .vmem S1024x128 .f32) (harg11 : arg11.IsWhole) (hc1 : ¬cond1 i) (hc2 : cond2 i) (hc3 : cond3 i)
    (x0 : Vec F S1024x1024 .f32) (x1 : Vec F S4096x128 .f32) (x2 : Vec F S1x128 .f32) (x3 : Vec F S128x64 .f32) (x4 : Vec F S1x64 .f32) (x5 : Vec F S64x64 .f32) (x6 : Vec F S1x64 .f32) (xs : Vec F S1024x128 .f32) :
    Σ' (L7 : List (View.Piece (Elt F) S1024x64 .f32)) (L8 : List (View.Piece (Elt F) S1024x64 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS

end Cert.KernelIdeal.Body

end
-- ==== Proof.IdealFrame.lean ====
/-
  The frame of the fused call: what the accumulator and the two result buffers hold after each grid point, and that
  the body, run at every point on what the pipeline hands it, leaves exactly that.

  After a point of column tile 0 the accumulator holds what the reset left; after a point of column tile 1, 2 or 3
  what the addition left over the contents of the point before; at a point of column tile 3 the two result buffers
  hold what the finishing branch stored, computed from the accumulator as just updated. Off those points the result
  windows are idle: what their buffers hold there is never read and never written back.
-/
import proofs.«149963_g51273319579809_fold_wed_c4_702_21_alg».proof.Proof.IdealRunFinish

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The runs at a grid point -/

/-- The reset run at a point of column tile 0, on that point's staging memrefs and input blocks. -/
def runResetAt (c : Dev nD) (t : Fin cfg0.N) (h0 : t.val % 4 = 0) :=
  runReset (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) ((hcond1 t).mpr h0) (fun h => (hcond2 t).mp h h0) (fun h => by have := (hcond3 t).mp h; omega) (iblk m c 0 t) (iblk m c 1 t) (iblk m c 2 t) (iblk m c 3 t) (iblk m c 4 t) (iblk m c 5 t) (iblk m c 6 t)

/-- The adding run at a point of column tile 1 or 2, over accumulator contents `xs`. -/
def runAddAt (c : Dev nD) (t : Fin cfg0.N) (h0 : ¬ t.val % 4 = 0) (h3 : ¬ t.val % 4 = 3) (xs : Vec F S1024x128 .f32) :=
  runAdd (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (fun h => h0 ((hcond1 t).mp h)) ((hcond2 t).mpr h0) (fun h => h3 ((hcond3 t).mp h)) (iblk m c 0 t) (iblk m c 1 t) (iblk m c 2 t) (iblk m c 3 t) (iblk m c 4 t) (iblk m c 5 t) (iblk m c 6 t) xs

/-- The finishing run at a point of column tile 3, over accumulator contents `xs`. -/
def runFinishAt (c : Dev nD) (t : Fin cfg0.N) (h0 : ¬ t.val % 4 = 0) (h3 : t.val % 4 = 3) (xs : Vec F S1024x128 .f32) :=
  runFinish (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (fun h => h0 ((hcond1 t).mp h)) ((hcond2 t).mpr h0) ((hcond3 t).mpr h3) (iblk m c 0 t) (iblk m c 1 t) (iblk m c 2 t) (iblk m c 3 t) (iblk m c 4 t) (iblk m c 5 t) (iblk m c 6 t) xs

/-! ## Each run's stores cover what it writes -/

theorem scoverReset (c : Dev nD) (t : Fin cfg0.N) (h0 : t.val % 4 = 0) (y : S1024x128.Idx) :
    ∃ pc ∈ (runResetAt m c t h0).2.2.1, y ∈ pc.1.set :=
  View.cover_of_tiledL (runResetAt m c t h0).2.2.1 S1024x128.size (by sl_kernel_rfl) y

theorem scoverAdd (c : Dev nD) (t : Fin cfg0.N) (h0 : ¬ t.val % 4 = 0) (h3 : ¬ t.val % 4 = 3) (xs : Vec F S1024x128 .f32) (y : S1024x128.Idx) :
    ∃ pc ∈ (runAddAt m c t h0 h3 xs).2.2.1, y ∈ pc.1.set :=
  View.cover_of_tiledL (runAddAt m c t h0 h3 xs).2.2.1 S1024x128.size (by sl_kernel_rfl) y

theorem scoverFinish (c : Dev nD) (t : Fin cfg0.N) (h0 : ¬ t.val % 4 = 0) (h3 : t.val % 4 = 3) (xs : Vec F S1024x128 .f32) (y : S1024x128.Idx) :
    ∃ pc ∈ (runFinishAt m c t h0 h3 xs).2.2.1, y ∈ pc.1.set :=
  View.cover_of_tiledL (runFinishAt m c t h0 h3 xs).2.2.1 S1024x128.size (by sl_kernel_rfl) y

theorem cover7 (c : Dev nD) (t : Fin cfg0.N) (h0 : ¬ t.val % 4 = 0) (h3 : t.val % 4 = 3) (xs : Vec F S1024x128 .f32) (y : S1024x64.Idx) :
    ∃ pc ∈ (runFinishAt m c t h0 h3 xs).1, y ∈ pc.1.set :=
  View.cover_of_tiledL (runFinishAt m c t h0 h3 xs).1 S1024x64.size (by sl_kernel_rfl) y

theorem cover8 (c : Dev nD) (t : Fin cfg0.N) (h0 : ¬ t.val % 4 = 0) (h3 : t.val % 4 = 3) (xs : Vec F S1024x128 .f32) (y : S1024x64.Idx) :
    ∃ pc ∈ (runFinishAt m c t h0 h3 xs).2.1, y ∈ pc.1.set :=
  View.cover_of_tiledL (runFinishAt m c t h0 h3 xs).2.1 S1024x64.size (by sl_kernel_rfl) y

/-! ## What each run leaves -/

/-- What the reset leaves in the accumulator. -/
def resetAt (c : Dev nD) (t : Fin cfg0.N) (h0 : t.val % 4 = 0) : Vec F S1024x128 .f32 :=
  VS.read (Elt F) (VS.writes (Elt F) VS.junk (runResetAt m c t h0).2.2.1)
/-- What the addition leaves in it, over `xs`. -/
def addAt (c : Dev nD) (t : Fin cfg0.N) (h0 : ¬ t.val % 4 = 0) (h3 : ¬ t.val % 4 = 3) (xs : Vec F S1024x128 .f32) : Vec F S1024x128 .f32 :=
  VS.read (Elt F) (VS.writes (Elt F) VS.junk (runAddAt m c t h0 h3 xs).2.2.1)
/-- What the finishing point leaves in it, over `xs`. -/
def finishAt (c : Dev nD) (t : Fin cfg0.N) (h0 : ¬ t.val % 4 = 0) (h3 : t.val % 4 = 3) (xs : Vec F S1024x128 .f32) : Vec F S1024x128 .f32 :=
  VS.read (Elt F) (VS.writes (Elt F) VS.junk (runFinishAt m c t h0 h3 xs).2.2.1)
/-- The logits block the finishing point stores. -/
def logitsAt (c : Dev nD) (t : Fin cfg0.N) (h0 : ¬ t.val % 4 = 0) (h3 : t.val % 4 = 3) (xs : Vec F S1024x128 .f32) : Vec F S1024x64 .f32 :=
  VO7.read (Elt F) (VO7.writes (Elt F) VO7.junk (runFinishAt m c t h0 h3 xs).1)
/-- The log-probabilities block it stores. -/
def logProbsAt (c : Dev nD) (t : Fin cfg0.N) (h0 : ¬ t.val % 4 = 0) (h3 : t.val % 4 = 3) (xs : Vec F S1024x128 .f32) : Vec F S1024x64 .f32 :=
  VO8.read (Elt F) (VO8.writes (Elt F) VO8.junk (runFinishAt m c t h0 h3 xs).2.1)
/-- A result buffer where its window is idle: a placeholder nothing reads. -/
def rest7 : Vec F S1024x64 .f32 := VO7.read (Elt F) VO7.junk
def rest8 : Vec F S1024x64 .f32 := VO8.read (Elt F) VO8.junk

/-! ## Point by point -/

/-- The two result buffers and the accumulator after the body at point `n`. -/
def outsAt (c : Dev nD) : (n : ℕ) → n < cfg0.N → Vec F S1024x64 .f32 × Vec F S1024x64 .f32 × Vec F S1024x128 .f32
  | 0, hn => (rest7, rest8, resetAt m c ⟨0, hn⟩ (Nat.zero_mod _))
  | n + 1, hn =>
    if h0 : (n + 1) % 4 = 0 then (rest7, rest8, resetAt m c ⟨n + 1, hn⟩ h0)
    else if h3 : (n + 1) % 4 = 3 then
      (logitsAt m c ⟨n + 1, hn⟩ h0 h3 (outsAt c n (Nat.lt_of_succ_lt hn)).2.2, logProbsAt m c ⟨n + 1, hn⟩ h0 h3 (outsAt c n (Nat.lt_of_succ_lt hn)).2.2,
        finishAt m c ⟨n + 1, hn⟩ h0 h3 (outsAt c n (Nat.lt_of_succ_lt hn)).2.2)
    else (rest7, rest8, addAt m c ⟨n + 1, hn⟩ h0 h3 (outsAt c n (Nat.lt_of_succ_lt hn)).2.2)

theorem outsAt_reset (c : Dev nD) (t : Fin cfg0.N) (h0 : t.val % 4 = 0) :
    outsAt m c t.val t.isLt = (rest7, rest8, resetAt m c t h0) := by
  obtain ⟨n, hn⟩ := t
  cases n with
  | zero => exact rfl
  | succ n => exact dif_pos h0

/-- The accumulator's contents before point `t`, when `t` is not the first point of its row tile. -/
abbrev prevAcc (c : Dev nD) (t : Fin cfg0.N) : Vec F S1024x128 .f32 :=
  (outsAt m c (t.val - 1) (Nat.lt_of_le_of_lt (Nat.sub_le _ _) t.isLt)).2.2

theorem outsAt_add (c : Dev nD) (t : Fin cfg0.N) (h0 : ¬ t.val % 4 = 0) (h3 : ¬ t.val % 4 = 3) :
    outsAt m c t.val t.isLt = (rest7, rest8, addAt m c t h0 h3 (prevAcc m c t)) := by
  obtain ⟨n, hn⟩ := t
  cases n with
  | zero => exact absurd (Nat.zero_mod 4) h0
  | succ n => exact (dif_neg h0).trans (dif_neg h3)

theorem outsAt_finish (c : Dev nD) (t : Fin cfg0.N) (h0 : ¬ t.val % 4 = 0) (h3 : t.val % 4 = 3) :
    outsAt m c t.val t.isLt = (logitsAt m c t h0 h3 (prevAcc m c t), logProbsAt m c t h0 h3 (prevAcc m c t), finishAt m c t h0 h3 (prevAcc m c t)) := by
  obtain ⟨n, hn⟩ := t
  cases n with
  | zero => exact absurd (Nat.zero_mod 4) h0
  | succ n => exact (dif_neg h0).trans (dif_pos h3)

/-- The region's invariant before position `n`: the class's before the first point, afterwards the accumulator at what
    the point before left and the generator register at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2.2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t.val t.isLt).1
    | ⟨8, _⟩ => (outsAt m c t.val t.isLt).2.1
    | ⟨_ + 9, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (outsAt m c t.val t.isLt).1 := by dsimp only [dats]
theorem after_8 (c : Dev nD) (t : Fin cfg0.N) : (dats m 0 c).after 8 t = (outsAt m c t.val t.isLt).2.1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [show (dats m 0 c).leavesExact 4 t = owns (c : Thread nD τ) (ms4 t) fullShare ((dats m 0 c).after 4 t) from by
    unfold Dat.leavesExact; rw [live4 t], after_4]
  rw [show (dats m 0 c).leavesExact 5 t = owns (c : Thread nD τ) (ms5 t) fullShare ((dats m 0 c).after 5 t) from by
    unfold Dat.leavesExact; rw [live5 t], after_5]
  rw [show (dats m 0 c).leavesExact 6 t = owns (c : Thread nD τ) (ms6 t) fullShare ((dats m 0 c).after 6 t) from by
    unfold Dat.leavesExact; rw [live6 t], after_6]
  by_cases h0 : t.val % 4 = 0
  · have hc3 : ¬cond3 (grid0.coords t) := fun h => by have := (hcond3 t).mp h; omega
    rw [Dat.leavesExact_idle (dats m 0 c) 7 t (idle7 t hc3) (noFlush7 t hc3), Dat.leavesExact_idle (dats m 0 c) 8 t (idle8 t hc3) (noFlush8 t hc3)]
    rw [outsAt_reset m c t h0]
    unfold resetAt; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runResetAt m c t h0).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, ⟨%es, HS⟩⟩
      isplitl [HS Hg]
      · isplitl [HS]
        · unfold owns; iexists _; isplitr
          swap; · iexact HS
          ipureintro; exact View.read_writes_of_cover _ _ _ _ _ (scoverReset m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runResetAt m c t h0).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexists _; iexact HS
      iintro ⟨H0, H1, H2, H3, H4, H5, H6, H7, H8, ⟨%es, HS⟩⟩
      isplitl [HS Hg]
      · isplitl [HS]
        · unfold owns; iexists _; isplitr
          swap; · iexact HS
          ipureintro; exact View.read_writes_of_cover _ _ _ _ _ (scoverReset m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
  · have hz : t.val ≠ 0 := fun h => h0 (by rw [h])
    by_cases h3 : t.val % 4 = 3
    · have hc3 : cond3 (grid0.coords t) := (hcond3 t).mpr h3
      rw [show (dats m 0 c).leavesExact 7 t = owns (c : Thread nD τ) (ms7 t) fullShare ((dats m 0 c).after 7 t) from by
        unfold Dat.leavesExact; rw [live7 t hc3], after_7]
      rw [show (dats m 0 c).leavesExact 8 t = owns (c : Thread nD τ) (ms8 t) fullShare ((dats m 0 c).after 8 t) from by
        unfold Dat.leavesExact; rw [live8 t hc3], after_8]
      rw [outsAt_finish m c t h0 h3]
      unfold logitsAt logProbsAt finishAt; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runFinishAt m c t h0 h3 (prevAcc m c t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS]; · iexact HS
      iintro ⟨H0, H1, H2, H3, H4, H5, H6, ⟨%e7, H7⟩, ⟨%e8, H8⟩, ⟨%es, HS⟩⟩
      isplitl [HS Hg]
      · isplitl [HS]
        · unfold owns; iexists _; isplitr
          swap; · iexact HS
          ipureintro; exact View.read_writes_of_cover _ _ _ _ _ (scoverFinish m c t h0 h3 (prevAcc m c t))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover7 m c t h0 h3 (prevAcc m c t))
      unfold owns; iexists _; isplitr
      swap; · iexact H8
      ipureintro; exact View.read_writes_of_cover _ _ _ _ _ (cover8 m c t h0 h3 (prevAcc m c t))
    · have hc3 : ¬cond3 (grid0.coords t) := fun h => h3 ((hcond3 t).mp h)
      rw [Dat.leavesExact_idle (dats m 0 c) 7 t (idle7 t hc3) (noFlush7 t hc3), Dat.leavesExact_idle (dats m 0 c) 8 t (idle8 t hc3) (noFlush8 t hc3)]
      rw [outsAt_add m c t h0 h3]
      unfold addAt; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runAddAt m c t h0 h3 (prevAcc m c t)).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, ⟨%es, HS⟩⟩
      isplitl [HS Hg]
      · isplitl [HS]
        · unfold owns; iexists _; isplitr
          swap; · iexact HS
          ipureintro; exact View.read_writes_of_cover _ _ _ _ _ (scoverAdd m c t h0 h3 (prevAcc m c t))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of the program terminates without a fault, each array of the call holding what the
    proof data says after the last point and every other buffer what it held when the call was entered. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to the end and leaves its seven argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Body

end
-- ==== Proof.IdealPieces.lean ====
/-
  What each branch leaves, as the body's arithmetic over the point's blocks.

  At a point of column tile `k` the body reads the state tile (1024 rows by 1024 columns) and rows `1024·k` to
  `1024·k + 1023` of the first weight matrix. The reset leaves their product in the accumulator; the addition leaves
  the accumulator's previous contents plus that product; the finishing point, after the same addition, stores the
  logits and the log-probabilities computed from the accumulator as just updated.
-/
import proofs.«149963_g51273319579809_fold_wed_c4_702_21_alg».proof.Proof.IdealFrame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem hz : (![0, 0] : Fin 2 → Nat) = fun _ => 0 := funext fun a => by fin_cases a <;> rfl

/-- The rows of the first weight matrix a point loads, out of the whole matrix. -/
def w1rows (i : grid0.Coords) (x1 : Vec F S4096x128 .f32) : Vec F S1024x128 .f32 :=
  View.ld x1 (Rect.unit (s := S4096x128) (k0_off1 i) S1024x128.size (k0_off1_inb i))

/-- Reading back what was laid into the whole accumulator gives it back. -/
theorem read_unread_acc (h : (scM : Memref sig .tc .vmem S1024x128 .f32).IsWhole) (xs : Vec F S1024x128 .f32) :
    View.read (Elt F) (View.whole cc0_scratch0) (h.unread xs) = xs := h.read_unread xs

/-- The reset leaves the point's partial product. -/
theorem resetAt_eq (c : Dev nD) (t : Fin cfg0.N) (h0 : t.val % 4 = 0) :
    resetAt m c t h0 = k0_pay2 (w1rows (grid0.coords t) (iblk m c 1 t)) (iblk m c 0 t) := by
  unfold resetAt
  rw [View.read_writes_eq_canon _ _ _ (scoverReset m c t h0)]
  unfold runResetAt runReset
  dsimp only
  sl_unfold_words
  rw [View.canon_unit_zero hz]
  simp only [View.readAt_eq_ld, Memref.IsWhole.read_unread, read_unread_acc, View.ld_unit_zero (S := S1024x1024) hz]
  rfl

/-- The addition leaves the previous contents plus the point's partial product. -/
theorem addAt_eq (c : Dev nD) (t : Fin cfg0.N) (h0 : ¬ t.val % 4 = 0) (h3 : ¬ t.val % 4 = 3) (xs : Vec F S1024x128 .f32) :
    addAt m c t h0 h3 xs = k0_pay3 (w1rows (grid0.coords t) (iblk m c 1 t)) (iblk m c 0 t) xs := by
  unfold addAt
  rw [View.read_writes_eq_canon _ _ _ (scoverAdd m c t h0 h3 xs)]
  unfold runAddAt runAdd
  dsimp only
  sl_unfold_words
  rw [View.canon_unit_zero hz]
  simp only [View.readAt_eq_ld, Memref.IsWhole.read_unread, read_unread_acc, View.ld_unit_zero (S := S1024x1024) hz, View.ld_unit_zero (S := S1024x128) hz]
  rfl

/-- So does the finishing point, in the accumulator. -/
theorem finishAt_eq (c : Dev nD) (t : Fin cfg0.N) (h0 : ¬ t.val % 4 = 0) (h3 : t.val % 4 = 3) (xs : Vec F S1024x128 .f32) :
    finishAt m c t h0 h3 xs = k0_pay3 (w1rows (grid0.coords t) (iblk m c 1 t)) (iblk m c 0 t) xs := by
  unfold finishAt
  rw [View.read_writes_eq_canon _ _ _ (scoverFinish m c t h0 h3 xs)]
  unfold runFinishAt runFinish
  dsimp only
  sl_unfold_words
  rw [View.canon_unit_zero hz]
  simp only [View.readAt_eq_ld, Memref.IsWhole.read_unread, read_unread_acc, View.ld_unit_zero (S := S1024x1024) hz, View.ld_unit_zero (S := S1024x128) hz]
  rfl

/-- The logits block it stores: the two small layers and the head over the updated accumulator. -/
theorem logitsAt_eq (c : Dev nD) (t : Fin cfg0.N) (h0 : ¬ t.val % 4 = 0) (h3 : t.val % 4 = 3) (xs : Vec F S1024x128 .f32) :
    logitsAt m c t h0 h3 xs
      = k0_pay4 (k0_pay3 (w1rows (grid0.coords t) (iblk m c 1 t)) (iblk m c 0 t) xs) (iblk m c 2 t) (iblk m c 3 t) (iblk m c 4 t)
          (iblk m c 5 t) (iblk m c 6 t) := by
  unfold logitsAt
  rw [View.read_writes_eq_canon _ _ _ (cover7 m c t h0 h3 xs)]
  unfold runFinishAt runFinish
  dsimp only
  sl_unfold_words
  rw [View.canon_unit_zero hz]
  simp only [View.readCov_unit_zero (S := S1024x128) _ hz, View.readAt_eq_ld, Memref.IsWhole.read_unread, read_unread_acc,
    View.ld_unit_zero (S := S1024x1024) hz, View.ld_unit_zero (S := S1024x128) hz, View.ld_unit_zero (S := S1x128) hz,
    View.ld_unit_zero (S := S128x64) hz, View.ld_unit_zero (S := S1x64) hz, View.ld_unit_zero (S := S64x64) hz]
  rfl

/-- The log-probabilities block it stores. -/
theorem logProbsAt_eq (c : Dev nD) (t : Fin cfg0.N) (h0 : ¬ t.val % 4 = 0) (h3 : t.val % 4 = 3) (xs : Vec F S1024x128 .f32) :
    logProbsAt m c t h0 h3 xs
      = k0_pay5 (k0_pay3 (w1rows (grid0.coords t) (iblk m c 1 t)) (iblk m c 0 t) xs) (iblk m c 2 t) (iblk m c 3 t) (iblk m c 4 t)
          (iblk m c 5 t) (iblk m c 6 t) := by
  unfold logProbsAt
  rw [View.read_writes_eq_canon _ _ _ (cover8 m c t h0 h3 xs)]
  unfold runFinishAt runFinish
  dsimp only
  sl_unfold_words
  rw [View.canon_unit_zero hz]
  simp only [View.readCov_unit_zero (S := S1024x128) _ hz, View.readAt_eq_ld, Memref.IsWhole.read_unread, read_unread_acc,
    View.ld_unit_zero (S := S1024x1024) hz, View.ld_unit_zero (S := S1024x128) hz, View.ld_unit_zero (S := S1x128) hz,
    View.ld_unit_zero (S := S128x64) hz, View.ld_unit_zero (S := S1x64) hz, View.ld_unit_zero (S := S64x64) hz]
  rfl

end Cert.KernelIdeal.Body

end
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.Router.lean ====
/-
  The router network, row by row, on the extended reals.

  A row `r` of the state array passes through two dense layers with ReLU and a third dense layer without it; the
  third layer's row is the row of logits. Its log-probabilities are the logits less the row's log-sum-exp, the
  log-sum-exp taken about the row's maximum `m`: `log (∑ k, exp (l k - m)) + m`. The kernel subtracts that sum from a
  logit in one step, `l j - (log (∑ …) + m)`; the reference subtracts the maximum first and the logarithm second,
  `(l j - m) - log (∑ …)`. The two agree wherever the logits are finite, which they are when every input is.
-/
import proofs.«149963_g51273319579809_fold_wed_c4_702_21_alg».proof.Proof.LibDense
import Idealize.ShloMosaic.PureOps.Ideal.Laws

noncomputable section

namespace Cert.Router

open Idealize.ShloMosaic Idealize.ShloMosaic.ValueIdx Cert.LibDense

/-- An extended real that is a real number. -/
def Fin' (a : EReal) : Prop := a ≠ ⊤ ∧ a ≠ ⊥

section Net

variable (x : FVec Ideal ⟨2, ![8192, 4096]⟩ .f32) (W1 : FVec Ideal ⟨2, ![4096, 128]⟩ .f32) (b1 : FVec Ideal ⟨1, ![128]⟩ .f32)
  (W2 : FVec Ideal ⟨2, ![128, 64]⟩ .f32) (b2 : FVec Ideal ⟨1, ![64]⟩ .f32)
  (W3 : FVec Ideal ⟨2, ![64, 64]⟩ .f32) (b3 : FVec Ideal ⟨1, ![64]⟩ .f32)

/-- Row `r` of the state array times the first weight matrix, before bias: entry `j` is `∑ c, x (r, c) · W1 (c, j)`. -/
def proj1 (r : Fin 8192) (j : Fin 128) : EReal := ∑ c : Fin 4096, x (ix2 r c) * W1 (ix2 c j)

/-- The first hidden row: `max (proj1 + b1) 0`. -/
def hidden1 (r : Fin 8192) : Fin 128 → EReal :=
  dense (fun c => x (ix2 r c)) (fun c j => W1 (ix2 c j)) (fun j => b1 (ix1 j))

/-- The second hidden row. -/
def hidden2 (r : Fin 8192) : Fin 64 → EReal :=
  dense (hidden1 x W1 b1 r) (fun k j => W2 (ix2 k j)) (fun j => b2 (ix1 j))

/-- The row of logits: the third layer, no ReLU. -/
def logit (r : Fin 8192) (j : Fin 64) : EReal :=
  ∑ k : Fin 64, hidden2 x W1 b1 W2 b2 r k * W3 (ix2 k j) + b3 (ix1 j)

end Net

/-- A row's maximum, as a fold of `max` from `⊥`. -/
def rowMax (l : Fin 64 → EReal) : EReal := (Finset.univ : Finset (Fin 64)).fold max ⊥ l

/-- The logarithm of the row's sum of exponentials about its maximum. -/
def logSum (l : Fin 64 → EReal) : EReal := Ideal.log (∑ k : Fin 64, Ideal.exp (l k - rowMax l))

/-- A log-probability as the kernel takes it. -/
def logProbK (l : Fin 64 → EReal) (j : Fin 64) : EReal := l j - (logSum l + rowMax l)

/-- A log-probability as the reference takes it. -/
def logProbR (l : Fin 64 → EReal) (j : Fin 64) : EReal := (l j - rowMax l) - logSum l

/-! ## The two result arrays -/

section Arrays

variable (x : FVec Ideal ⟨2, ![8192, 4096]⟩ .f32) (W1 : FVec Ideal ⟨2, ![4096, 128]⟩ .f32) (b1 : FVec Ideal ⟨1, ![128]⟩ .f32)
  (W2 : FVec Ideal ⟨2, ![128, 64]⟩ .f32) (b2 : FVec Ideal ⟨1, ![64]⟩ .f32)
  (W3 : FVec Ideal ⟨2, ![64, 64]⟩ .f32) (b3 : FVec Ideal ⟨1, ![64]⟩ .f32)

/-- The logits of every row. -/
def logitsArr : FVec Ideal ⟨2, ![8192, 64]⟩ .f32 := fun i => logit x W1 b1 W2 b2 W3 b3 (i 0) (i 1)

/-- The log-probabilities of every row, in the kernel's arrangement. -/
def logProbsArrK : FVec Ideal ⟨2, ![8192, 64]⟩ .f32 := fun i => logProbK (logit x W1 b1 W2 b2 W3 b3 (i 0)) (i 1)

/-- The same, in the reference's arrangement. -/
def logProbsArrR : FVec Ideal ⟨2, ![8192, 64]⟩ .f32 := fun i => logProbR (logit x W1 b1 W2 b2 W3 b3 (i 0)) (i 1)

end Arrays

end Cert.Router

end
-- ==== Proof.RouterLaws.lean ====
/-
  Two facts about the router network on the extended reals, and one about sums.

  A row of finite logits has the same log-probabilities whether the row's maximum is subtracted before the
  logarithm of the sum or together with it: `l j - (L + m) = (l j - m) - L` for real `l j`, `m` and `L`, and the
  maximum of a row of reals and the logarithm of a positive real sum are real. Finite inputs give finite logits:
  sums, products and maxima with zero of real numbers are real. A sum over 4096 columns is the sum over four tiles
  of 1024 columns of the tiles' sums.
-/
import proofs.«149963_g51273319579809_fold_wed_c4_702_21_alg».proof.Proof.Router

noncomputable section

namespace Cert.Router

open Idealize.ShloMosaic Idealize.ShloMosaic.ValueIdx Cert.LibDense

/-! ## Real numbers inside the extended reals -/

/-- A real number is neither infinity. -/
theorem fin'_coe (r : ℝ) : Fin' (r : EReal) := ⟨EReal.coe_ne_top r, EReal.coe_ne_bot r⟩

/-- An extended real that is neither infinity is the image of a real number. -/
theorem exists_real {a : EReal} (h : Fin' a) : ∃ r : ℝ, a = (r : EReal) :=
  ⟨a.toReal, (EReal.coe_toReal h.1 h.2).symm⟩

theorem fin'_zero : Fin' (0 : EReal) := ⟨EReal.zero_ne_top, EReal.zero_ne_bot⟩

/-- The sum of two reals is real. -/
theorem fin'_add {a b : EReal} (ha : Fin' a) (hb : Fin' b) : Fin' (a + b) := by
  obtain ⟨r, rfl⟩ := exists_real ha
  obtain ⟨s, rfl⟩ := exists_real hb
  rw [← EReal.coe_add]
  exact fin'_coe _

/-- The product of two reals is real. -/
theorem fin'_mul {a b : EReal} (ha : Fin' a) (hb : Fin' b) : Fin' (a * b) := by
  obtain ⟨r, rfl⟩ := exists_real ha
  obtain ⟨s, rfl⟩ := exists_real hb
  rw [← EReal.coe_mul]
  exact fin'_coe _

/-- The larger of a real and zero is real: it is one of the two. -/
theorem fin'_max_zero {a : EReal} (ha : Fin' a) : Fin' (max a 0) := by
  rcases max_choice a 0 with h | h
  · rw [h]; exact ha
  · rw [h]; exact fin'_zero

/-- A finite sum of reals is real. -/
theorem fin'_sum {ι : Type*} (s : Finset ι) (f : ι → EReal) (h : ∀ i ∈ s, Fin' (f i)) : Fin' (∑ i ∈ s, f i) :=
  Finset.sum_induction f Fin' (fun _ _ => fin'_add) fin'_zero h

/-- The inclusion of the reals carries a finite sum to the sum of the images. -/
theorem coe_sum {ι : Type*} (s : Finset ι) (f : ι → ℝ) : ((∑ i ∈ s, f i : ℝ) : EReal) = ∑ i ∈ s, (f i : EReal) := by
  classical
  refine Finset.induction_on s ?_ fun i s hi ih => ?_
  · rw [Finset.sum_empty, Finset.sum_empty, EReal.coe_zero]
  · rw [Finset.sum_insert hi, Finset.sum_insert hi, EReal.coe_add, ih]

/-- One dense layer on a real row, with real weights and biases, gives a real row. -/
theorem fin'_dense {K N : ℕ} (h : Fin K → EReal) (W : Fin K → Fin N → EReal) (b : Fin N → EReal)
    (hh : ∀ k, Fin' (h k)) (hW : ∀ k j, Fin' (W k j)) (hb : ∀ j, Fin' (b j)) (j : Fin N) : Fin' (dense h W b j) := by
  unfold dense
  exact fin'_max_zero (fin'_add (fin'_sum _ _ fun k _ => fin'_mul (hh k) (hW k j)) (hb j))

/-! ## The row's maximum and the logarithm of its sum are real -/

/-- The maximum of a row of 64 reals is real: it is at least the first entry, and every entry is below `⊤`. -/
theorem fin'_rowMax (l : Fin 64 → EReal) (hl : ∀ k, Fin' (l k)) : Fin' (rowMax l) := by
  unfold rowMax
  constructor
  · exact ne_of_lt ((Finset.fold_max_lt _).2 ⟨bot_lt_top, fun k _ => lt_top_iff_ne_top.2 (hl k).1⟩)
  · exact ne_of_gt ((Finset.lt_fold_max _).2 (Or.inr ⟨0, Finset.mem_univ _, bot_lt_iff_ne_bot.2 (hl 0).2⟩))

/-- The sum of the exponentials of a row of reals about a real number is a positive real, so its logarithm is real. -/
theorem fin'_logSum (l : Fin 64 → EReal) (hl : ∀ k, Fin' (l k)) : Fin' (logSum l) := by
  obtain ⟨m, hm⟩ := exists_real (fin'_rowMax l hl)
  obtain ⟨a, rfl⟩ : ∃ a : Fin 64 → ℝ, l = fun k => (a k : EReal) :=
    ⟨fun k => (l k).toReal, funext fun k => (EReal.coe_toReal (hl k).1 (hl k).2).symm⟩
  have he : ∀ k : Fin 64, Ideal.exp ((a k : EReal) - (m : EReal)) = ((Real.exp (a k - m) : ℝ) : EReal) := fun k => by
    rw [← EReal.coe_sub, Ideal.exp_coe]
  have hpos : (0 : ℝ) < ∑ k : Fin 64, Real.exp (a k - m) :=
    Finset.sum_pos (fun k _ => Real.exp_pos _) ⟨0, Finset.mem_univ _⟩
  unfold logSum
  rw [hm]
  simp only [he]
  rw [← coe_sum, Ideal.log_coe, if_neg (not_le.2 hpos)]
  exact fin'_coe _

/-- Subtracting a sum of two reals from a real, in one step or in two. -/
theorem sub_add_eq_sub_sub {a L m : EReal} (ha : Fin' a) (hL : Fin' L) (hm : Fin' m) : a - (L + m) = (a - m) - L := by
  obtain ⟨a, rfl⟩ := exists_real ha
  obtain ⟨L, rfl⟩ := exists_real hL
  obtain ⟨m, rfl⟩ := exists_real hm
  rw [← EReal.coe_add, ← EReal.coe_sub, ← EReal.coe_sub, ← EReal.coe_sub]
  congr 1
  ring

/-- On a row of finite logits the kernel's and the reference's arrangements of the log-probability agree. -/
theorem logProb_eq (l : Fin 64 → EReal) (hl : ∀ k, Fin' (l k)) (j : Fin 64) : logProbK l j = logProbR l j := by
  unfold logProbK logProbR
  exact sub_add_eq_sub_sub (hl j) (fin'_logSum l hl) (fin'_rowMax l hl)

/-- Finite inputs give finite logits. -/
theorem logit_fin (x : FVec Ideal ⟨2, ![8192, 4096]⟩ .f32) (W1 : FVec Ideal ⟨2, ![4096, 128]⟩ .f32) (b1 : FVec Ideal ⟨1, ![128]⟩ .f32)
    (W2 : FVec Ideal ⟨2, ![128, 64]⟩ .f32) (b2 : FVec Ideal ⟨1, ![64]⟩ .f32)
    (W3 : FVec Ideal ⟨2, ![64, 64]⟩ .f32) (b3 : FVec Ideal ⟨1, ![64]⟩ .f32)
    (hx : ∀ i, Fin' (x i)) (hW1 : ∀ i, Fin' (W1 i)) (hb1 : ∀ i, Fin' (b1 i)) (hW2 : ∀ i, Fin' (W2 i)) (hb2 : ∀ i, Fin' (b2 i))
    (hW3 : ∀ i, Fin' (W3 i)) (hb3 : ∀ i, Fin' (b3 i)) (r : Fin 8192) (j : Fin 64) :
    Fin' (logit x W1 b1 W2 b2 W3 b3 r j) := by
  have h1 : ∀ k, Fin' (hidden1 x W1 b1 r k) := fun k =>
    fin'_dense _ _ _ (fun c => hx _) (fun c j => hW1 _) (fun j => hb1 _) k
  have h2 : ∀ k, Fin' (hidden2 x W1 b1 W2 b2 r k) := fun k =>
    fin'_dense _ _ _ h1 (fun c j => hW2 _) (fun j => hb2 _) k
  unfold logit
  exact fin'_add (fin'_sum _ _ fun k _ => fin'_mul (h2 k) (hW3 _)) (hb3 _)

/-- So under finite inputs the two arrangements give one array of log-probabilities. -/
theorem logProbsArr_eq (x : FVec Ideal ⟨2, ![8192, 4096]⟩ .f32) (W1 : FVec Ideal ⟨2, ![4096, 128]⟩ .f32) (b1 : FVec Ideal ⟨1, ![128]⟩ .f32)
    (W2 : FVec Ideal ⟨2, ![128, 64]⟩ .f32) (b2 : FVec Ideal ⟨1, ![64]⟩ .f32)
    (W3 : FVec Ideal ⟨2, ![64, 64]⟩ .f32) (b3 : FVec Ideal ⟨1, ![64]⟩ .f32)
    (hx : ∀ i, Fin' (x i)) (hW1 : ∀ i, Fin' (W1 i)) (hb1 : ∀ i, Fin' (b1 i)) (hW2 : ∀ i, Fin' (W2 i)) (hb2 : ∀ i, Fin' (b2 i))
    (hW3 : ∀ i, Fin' (W3 i)) (hb3 : ∀ i, Fin' (b3 i)) :
    logProbsArrR x W1 b1 W2 b2 W3 b3 = logProbsArrK x W1 b1 W2 b2 W3 b3 :=
  funext fun i => (logProb_eq _ (fun k => logit_fin x W1 b1 W2 b2 W3 b3 hx hW1 hb1 hW2 hb2 hW3 hb3 (i 0) k) (i 1)).symm

/-- A sum over 4096 columns, tile by tile: four tiles of 1024 columns. -/
theorem sum_tiles (f : Fin 4096 → EReal) :
    ∑ c : Fin 4096, f c = ∑ k : Fin 4, ∑ c' : Fin 1024, f ⟨k.val * 1024 + c'.val, by have := k.isLt; have := c'.isLt; omega⟩ := by
  rw [← Equiv.sum_comp (finProdFinEquiv : Fin 4 × Fin 1024 ≃ Fin 4096) f, Fintype.sum_prod_type]
  refine Finset.sum_congr rfl fun k _ => Finset.sum_congr rfl fun c' _ => congrArg f (Fin.ext ?_)
  rw [finProdFinEquiv_apply_val]
  show c'.val + 1024 * k.val = k.val * 1024 + c'.val
  omega

end Cert.Router

end
-- ==== Proof.IdealBlocks.lean ====
/-
  The blocks the body reads, entry by entry, and a row's product with the first weight matrix tile by tile.

  At point `t` the state window's block is rows `1024·(t / 4)` onward and columns `1024·(t % 4)` onward of the state
  array; every other input window's block is its whole array, the three biases as one-row arrays; the rows of the
  first weight matrix the body picks are rows `1024·(t % 4)` onward. A row's product with the first weight matrix is
  the sum of its four column tiles' partial products, added in tile order.
-/
import proofs.«149963_g51273319579809_fold_wed_c4_702_21_alg».proof.Proof.IdealPieces
import proofs.«149963_g51273319579809_fold_wed_c4_702_21_alg».proof.Proof.RouterLaws
import Idealize.ShloMosaic.Lib.Pipeline.Value
import Idealize.ShloMosaic.Lib.ValueLayout
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Reads

variable (m : (ℓ : Loc nD τ sig) → Buf (Elt F) ℓ)

theorem idx_x : ∀ t : Fin cfg0.N, win0_0.index t (0 : Fin 2) = t.val / 4 ∧ win0_0.index t (1 : Fin 2) = t.val % 4 :=
  (by decide +kernel : ∀ t : Fin grid0.N, _)
theorem off_w1 : ∀ t : Fin cfg0.N, k0_off1 (grid0.coords t) (0 : Fin 2) = t.val % 4 * 1024 ∧ k0_off1 (grid0.coords t) (1 : Fin 2) = 0 :=
  (by decide +kernel : ∀ t : Fin grid0.N, _)
/-- A result window's block index: the row tile, column tile 0. -/
theorem idx_o7 : ∀ t : Fin cfg0.N, win0_7.index t (0 : Fin 2) = t.val / 4 ∧ win0_7.index t (1 : Fin 2) = 0 :=
  (by decide +kernel : ∀ t : Fin grid0.N, _)
theorem idx_o8 : ∀ t : Fin cfg0.N, win0_8.index t (0 : Fin 2) = t.val / 4 ∧ win0_8.index t (1 : Fin 2) = 0 :=
  (by decide +kernel : ∀ t : Fin grid0.N, _)

/-- The state tile at (p, q) is the state array at row `1024·(t / 4) + p`, column `1024·(t % 4) + q`. -/
theorem xblk_apply (c : Dev nD) (t : Fin cfg0.N) (hN : t.val < 32) (p q : Fin 1024) :
    (iblk m c 0 t : Vec F S1024x1024 .f32) (ix2 p q)
      = (m ((c : Thread nD τ).loc main_arg0) : Vec F S8192x4096 .f32) (ix2 ⟨t.val / 4 * 1024 + p.val, by omega⟩ ⟨t.val % 4 * 1024 + q.val, by omega⟩) := by
  have hi := idx_x t
  unfold iblk
  rw [View.read_apply]
  show V m c main_arg0 _ = _
  rw [V_main_arg0]
  show m (c.tc.loc main_arg0) _ = m (c.tc.loc main_arg0) _
  congr 1
  funext a
  apply Fin.ext
  match a with
  | ⟨0, _⟩ => show win0_0.index t (0 : Fin 2) * 1024 + 1 * p.val = t.val / 4 * 1024 + p.val; rw [hi.1]; omega
  | ⟨1, _⟩ => show win0_0.index t (1 : Fin 2) * 1024 + 1 * q.val = t.val % 4 * 1024 + q.val; rw [hi.2]; omega

/-- The picked rows of the first weight matrix at (q, j): row `1024·(t % 4) + q` of what the window holds. -/
theorem w1rows_apply (t : Fin cfg0.N) (hN : t.val < 32) (x1 : Vec F S4096x128 .f32) (q : Fin 1024) (j : Fin 128) :
    w1rows (grid0.coords t) x1 (ix2 q j) = x1 (ix2 ⟨t.val % 4 * 1024 + q.val, by omega⟩ j) := by
  have ho := off_w1 t
  unfold w1rows View.ld
  congr 1
  funext a
  apply Fin.ext
  match a with
  | ⟨0, _⟩ => show k0_off1 (grid0.coords t) (0 : Fin 2) + 1 * q.val = t.val % 4 * 1024 + q.val; rw [ho.1]; omega
  | ⟨1, _⟩ => show k0_off1 (grid0.coords t) (1 : Fin 2) + 1 * j.val = j.val; rw [ho.2]; omega

theorem idx_w1 : ∀ t : Fin cfg0.N, win0_1.index t (0 : Fin 2) = 0 ∧ win0_1.index t (1 : Fin 2) = 0 :=
  (by decide +kernel : ∀ t : Fin grid0.N, _)

/-- Window 1's block is the whole of its array at every point. -/
theorem blk1_apply (c : Dev nD) (t : Fin cfg0.N) (a : Fin 4096) (j : Fin 128) :
    (iblk m c 1 t : Vec F S4096x128 .f32) (ix2 a j) = (m ((c : Thread nD τ).loc main_arg1) : Vec F S4096x128 .f32) (ix2 a j) := by
  have hi := idx_w1 t
  unfold iblk
  rw [View.read_apply]
  show V m c main_arg1 _ = _
  rw [V_main_arg1]
  show m (c.tc.loc main_arg1) _ = m (c.tc.loc main_arg1) _
  congr 1
  funext b
  apply Fin.ext
  match b with
  | ⟨0, _⟩ => show win0_1.index t (0 : Fin 2) * 4096 + 1 * a.val = a.val; rw [hi.1]; omega
  | ⟨1, _⟩ => show win0_1.index t (1 : Fin 2) * 128 + 1 * j.val = j.val; rw [hi.2]; omega

theorem idx_w2 : ∀ t : Fin cfg0.N, win0_2.index t (0 : Fin 2) = 0 ∧ win0_2.index t (1 : Fin 2) = 0 :=
  (by decide +kernel : ∀ t : Fin grid0.N, _)

/-- The first bias as the call finds it: the bias vector laid out as one row. -/
theorem V_main_v0 (c : Dev nD) : (V m c main_v0 : S1x128.Idx → Elt F .f32) = shapeCast S1x128 (m ((c : Thread nD τ).loc main_arg2)) shapeCasts_S128_S1x128 := by
  dsimp only [V, hostOps0]
  after_results
  rfl

/-- Window 2's block, the one row, holds the first bias vector. -/
theorem blk2_apply (c : Dev nD) (t : Fin cfg0.N) (k : Fin 128) :
    (iblk m c 2 t : Vec F S1x128 .f32) (ix2 (0 : Fin 1) k) = (m ((c : Thread nD τ).loc main_arg2) : Vec F S128 .f32) (ix1 k) := by
  have hi := idx_w2 t
  unfold iblk
  rw [View.read_apply]
  show (V m c main_v0 : S1x128.Idx → Elt F .f32) _ = _
  rw [V_main_v0]
  refine Eq.trans (congrArg _ (?_ : _ = ix2 (0 : Fin 1) k)) (shapeCast_a_1a_apply _ _ 0 k)
  funext b
  apply Fin.ext
  match b with
  | ⟨0, _⟩ => show win0_2.index t (0 : Fin 2) * 1 + 1 * 0 = 0; rw [hi.1]
  | ⟨1, _⟩ => show win0_2.index t (1 : Fin 2) * 128 + 1 * k.val = k.val; rw [hi.2]; omega

theorem idx_w3 : ∀ t : Fin cfg0.N, win0_3.index t (0 : Fin 2) = 0 ∧ win0_3.index t (1 : Fin 2) = 0 :=
  (by decide +kernel : ∀ t : Fin grid0.N, _)

/-- Window 3's block is the whole of its array at every point. -/
theorem blk3_apply (c : Dev nD) (t : Fin cfg0.N) (a : Fin 128) (j : Fin 64) :
    (iblk m c 3 t : Vec F S128x64 .f32) (ix2 a j) = (m ((c : Thread nD τ).loc main_arg3) : Vec F S128x64 .f32) (ix2 a j) := by
  have hi := idx_w3 t
  unfold iblk
  rw [View.read_apply]
  show V m c main_arg3 _ = _
  rw [V_main_arg3]
  show m (c.tc.loc main_arg3) _ = m (c.tc.loc main_arg3) _
  congr 1
  funext b
  apply Fin.ext
  match b with
  | ⟨0, _⟩ => show win0_3.index t (0 : Fin 2) * 128 + 1 * a.val = a.val; rw [hi.1]; omega
  | ⟨1, _⟩ => show win0_3.index t (1 : Fin 2) * 64 + 1 * j.val = j.val; rw [hi.2]; omega

theorem idx_w4 : ∀ t : Fin cfg0.N, win0_4.index t (0 : Fin 2) = 0 ∧ win0_4.index t (1 : Fin 2) = 0 :=
  (by decide +kernel : ∀ t : Fin grid0.N, _)

/-- The second bias as the call finds it: the bias vector laid out as one row. -/
theorem V_main_v1 (c : Dev nD) : (V m c main_v1 : S1x64.Idx → Elt F .f32) = shapeCast S1x64 (m ((c : Thread nD τ).loc main_arg4)) shapeCasts_S64_S1x64 := by
  dsimp only [V, hostOps0]
  after_results
  rfl

/-- Window 4's block, the one row, holds the second bias vector. -/
theorem blk4_apply (c : Dev nD) (t : Fin cfg0.N) (k : Fin 64) :
    (iblk m c 4 t : Vec F S1x64 .f32) (ix2 (0 : Fin 1) k) = (m ((c : Thread nD τ).loc main_arg4) : Vec F S64 .f32) (ix1 k) := by
  have hi := idx_w4 t
  unfold iblk
  rw [View.read_apply]
  show (V m c main_v1 : S1x64.Idx → Elt F .f32) _ = _
  rw [V_main_v1]
  refine Eq.trans (congrArg _ (?_ : _ = ix2 (0 : Fin 1) k)) (shapeCast_a_1a_apply _ _ 0 k)
  funext b
  apply Fin.ext
  match b with
  | ⟨0, _⟩ => show win0_4.index t (0 : Fin 2) * 1 + 1 * 0 = 0; rw [hi.1]
  | ⟨1, _⟩ => show win0_4.index t (1 : Fin 2) * 64 + 1 * k.val = k.val; rw [hi.2]; omega

theorem idx_w5 : ∀ t : Fin cfg0.N, win0_5.index t (0 : Fin 2) = 0 ∧ win0_5.index t (1 : Fin 2) = 0 :=
  (by decide +kernel : ∀ t : Fin grid0.N, _)

/-- Window 5's block is the whole of its array at every point. -/
theorem blk5_apply (c : Dev nD) (t : Fin cfg0.N) (a : Fin 64) (j : Fin 64) :
    (iblk m c 5 t : Vec F S64x64 .f32) (ix2 a j) = (m ((c : Thread nD τ).loc main_arg5) : Vec F S64x64 .f32) (ix2 a j) := by
  have hi := idx_w5 t
  unfold iblk
  rw [View.read_apply]
  show V m c main_arg5 _ = _
  rw [V_main_arg5]
  show m (c.tc.loc main_arg5) _ = m (c.tc.loc main_arg5) _
  congr 1
  funext b
  apply Fin.ext
  match b with
  | ⟨0, _⟩ => show win0_5.index t (0 : Fin 2) * 64 + 1 * a.val = a.val; rw [hi.1]; omega
  | ⟨1, _⟩ => show win0_5.index t (1 : Fin 2) * 64 + 1 * j.val = j.val; rw [hi.2]; omega

theorem idx_w6 : ∀ t : Fin cfg0.N, win0_6.index t (0 : Fin 2) = 0 ∧ win0_6.index t (1 : Fin 2) = 0 :=
  (by decide +kernel : ∀ t : Fin grid0.N, _)

/-- The third bias as the call finds it: the bias vector laid out as one row. -/
theorem V_main_v2 (c : Dev nD) : (V m c main_v2 : S1x64.Idx → Elt F .f32) = shapeCast S1x64 (m ((c : Thread nD τ).loc main_arg6)) shapeCasts_S64_S1x64 := by
  dsimp only [V, hostOps0]
  after_results
  rfl

/-- Window 6's block, the one row, holds the third bias vector. -/
theorem blk6_apply (c : Dev nD) (t : Fin cfg0.N) (k : Fin 64) :
    (iblk m c 6 t : Vec F S1x64 .f32) (ix2 (0 : Fin 1) k) = (m ((c : Thread nD τ).loc main_arg6) : Vec F S64 .f32) (ix1 k) := by
  have hi := idx_w6 t
  unfold iblk
  rw [View.read_apply]
  show (V m c main_v2 : S1x64.Idx → Elt F .f32) _ = _
  rw [V_main_v2]
  refine Eq.trans (congrArg _ (?_ : _ = ix2 (0 : Fin 1) k)) (shapeCast_a_1a_apply _ _ 0 k)
  funext b
  apply Fin.ext
  match b with
  | ⟨0, _⟩ => show win0_6.index t (0 : Fin 2) * 1 + 1 * 0 = 0; rw [hi.1]
  | ⟨1, _⟩ => show win0_6.index t (1 : Fin 2) * 64 + 1 * k.val = k.val; rw [hi.2]; omega

end Reads

/-! ## A row's product with the first weight matrix, tile by tile -/

section Tiles

open Cert.Router

variable (X : FVec Ideal ⟨2, ![8192, 4096]⟩ .f32) (W1 : FVec Ideal ⟨2, ![4096, 128]⟩ .f32) (R : Fin 8192) (j : Fin 128)

/-- The partial product of row `R` over column tile `k`. -/
def tileSum (k : Fin 4) : EReal :=
  ∑ q : Fin 1024, X (ix2 R ⟨k.val * 1024 + q.val, by have := k.isLt; have := q.isLt; omega⟩)
    * W1 (ix2 ⟨k.val * 1024 + q.val, by have := k.isLt; have := q.isLt; omega⟩ j)

/-- The same with the tile a natural number (zero past the last tile). -/
def tileN (k : ℕ) : EReal := if h : k < 4 then tileSum X W1 R j ⟨k, h⟩ else 0

/-- The tiles' partial products added in order, up to tile `k`. -/
def tilesUpTo : ℕ → EReal
  | 0 => tileN X W1 R j 0
  | k + 1 => tilesUpTo k + tileN X W1 R j (k + 1)

/-- All four tiles make the whole product. -/
theorem tilesUpTo_three : tilesUpTo X W1 R j 3 = proj1 X W1 R j := by
  unfold proj1
  rw [sum_tiles, Fin.sum_univ_four]
  show ((tileN X W1 R j 0 + tileN X W1 R j 1) + tileN X W1 R j 2) + tileN X W1 R j 3 = _
  unfold tileN
  rw [dif_pos (by decide : (0 : ℕ) < 4), dif_pos (by decide : (1 : ℕ) < 4), dif_pos (by decide : (2 : ℕ) < 4),
    dif_pos (by decide : (3 : ℕ) < 4)]
  rfl

end Tiles

end Cert.KernelIdeal.Body

end
-- ==== Proof.IdealPayloads.lean ====
/-
  The kernel's stored values, read at an index on the extended reals.

  The partial product of a state tile with its rows of the first weight matrix is, at (p, j), the sum over the tile's
  1024 columns of state times weight (the change of float format before the product is the identity here); the
  accumulator's update adds that to what it held. From a finished accumulator row the logits row is the second and
  third dense layers over `max (acc + b1) 0`, and the stored log-probability is the logit less the row's
  log-sum-exp about its maximum, in one subtraction.
-/
import proofs.«149963_g51273319579809_fold_wed_c4_702_21_alg».proof.Proof.Gen.KernelIdeal.Skeleton
import proofs.«149963_g51273319579809_fold_wed_c4_702_21_alg».proof.Proof.Router

noncomputable section

namespace Cert.KernelIdeal.Pay

open Cert.KernelIdeal Cert.KernelIdeal.Gen Idealize.ShloMosaic Idealize.ShloMosaic.ValueIdx Cert.LibDense

/-! ## Layout forms a row reduction with kept dimensions meets -/

section Layout

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A reduction along the columns inserts its coordinate second: over the row index `p`, coordinate `k` gives `(p, k)`. -/
theorem lift_cols (h : S1024x64.Reduces [1] S1024) (p : Fin 1024) (k : Fin 64) : h.lift (ix1 p) k = ix2 p k :=
  funext fun c => Fin.ext (by match c with | ⟨0, _⟩ => rfl | ⟨1, _⟩ => rfl)

end Layout

/-! ## Words -/

/-- The word a row maximum starts from is the least extended real. -/
theorem ofBits_negInf_f32 : Ideal.ofBits .f32 0xFF800000#32 = ⊥ := by simp [Ideal.ofBits, Ideal.ieee]

/-! ## The three products' dimension records are the rows-by-columns one -/

theorem dot1_plain : dot_S1024x1024_S1024x128_S1024x128_1_0_0_1_n_n = DotDims.plain 1024 1024 128 := rfl
theorem dot2_plain : dot_S1024x128_S128x64_S1024x64_1_0_0_1_n_n = DotDims.plain 1024 128 64 := rfl
theorem dot3_plain : dot_S1024x64_S64x64_S1024x64_1_0_0_1_n_n = DotDims.plain 1024 64 64 := rfl

/-- A product into a zero accumulator whose dimension record is the rows-by-columns one, read at (r, j). -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision) (lhs : FVec Ideal ⟨2, ![M, K]⟩ φ₁)
    (rhs : FVec Ideal ⟨2, ![K, N]⟩ φ₂) (r : Fin M) (j : Fin N) :
    matmul d prec lhs rhs (constant (F := Ideal) ⟨2, ![M, N]⟩ .f32 0x00000000#32) (ix2 r j)
      = ∑ k : Fin K, lhs (ix2 r k) * rhs (ix2 k j) := by
  subst hd
  exact matmul_plain_zero_apply prec lhs rhs r j

/-! ## Sums and differences from their parts -/

/-- A sum at an index from its two terms there. -/
theorem addf_of_eq {s : Shape} {φ : FTy} (a b : FVec Ideal s φ) (i : s.Idx) {x y : EReal} (ha : a i = x) (hb : b i = y) :
    addf a b i = x + y := by
  rw [addf_apply, ha, hb]

/-- A difference at an index from its two terms there. -/
theorem subf_of_eq {s : Shape} {φ : FTy} (a b : FVec Ideal s φ) (i : s.Idx) {x y : EReal} (ha : a i = x) (hb : b i = y) :
    subf a b i = x - y := by
  rw [subf_apply, ha, hb]

/-- The accumulator plus the first bias row, floored at zero, at (p, k). -/
theorem layer1_apply (v16 : FVec Ideal S1024x128 .f32) (v17 : FVec Ideal S1x128 .f32) (p : Fin 1024) (k : Fin 128)
    (row : Fin 128 → EReal) (hrow : ∀ k, v16 (ix2 p k) = row k) :
    maximumf (addf v16 (broadcastTo S1024x128 (shapeCast S1x128 v17 shapeCasts_S1x128_S1x128) broadcasts_S1x128_S1024x128))
        (broadcast S1024x128 (Scalar.ofBits (F := Ideal) .f32 0x00000000#32)) (ix2 p k)
      = max (row k + v17 (ix2 (0 : Fin 1) k)) 0 := by
  show max (v16 (ix2 p k)
      + broadcastTo S1024x128 (shapeCast S1x128 v17 shapeCasts_S1x128_S1x128) broadcasts_S1x128_S1024x128 (ix2 p k))
      (Ideal.ofBits .f32 0x00000000#32) = _
  rw [broadcastTo_1b_ab_apply, shapeCast_self, Ideal.ofBits_zero_f32, hrow]

/-- A row's maximum, kept as a one-column array, at (p, u): the fold of `max` from `⊥` over the row. -/
theorem rowMax_keep_apply (L : FVec Ideal S1024x64 .f32) (p : Fin 1024) (u : Fin 1) :
    shapeCast S1024x1 (multiReduction (F := Ideal) .maximumf [1] S1024 L 0xFF800000#32 reduces_S1024x64_S1024 (.inl rfl) rfl)
        shapeCasts_S1024_S1024x1 (ix2 p u)
      = Cert.Router.rowMax (fun k => L (ix2 p k)) := by
  refine (shapeCast_a_a1_apply _ _ p u).trans ?_
  refine (Ideal.multiReduction_maximumf_single L _ reduces_S1024x64_S1024 (.inl rfl) rfl (ix1 p)).trans ?_
  unfold Cert.Router.rowMax
  refine congrArg₂ (fun b f => (Finset.univ : Finset (Fin 64)).fold max b f) ofBits_negInf_f32 (funext fun k => ?_)
  exact congrArg L (lift_cols _ p k)

/-- A row's sum, kept as a one-column array, at (p, u): the sum over the row. -/
theorem rowSum_keep_apply (E : FVec Ideal S1024x64 .f32) (p : Fin 1024) (u : Fin 1) :
    shapeCast S1024x1 (multiReduction (F := Ideal) .add [1] S1024 E 0x00000000#32 reduces_S1024x64_S1024 (.inl rfl) rfl)
        shapeCasts_S1024_S1024x1 (ix2 p u)
      = ∑ k : Fin 64, E (ix2 p k) := by
  refine (shapeCast_a_a1_apply _ _ p u).trans ?_
  refine (Ideal.multiReduction_add_single E _ reduces_S1024x64_S1024 (.inl rfl) rfl (ix1 p)).trans ?_
  exact Finset.sum_congr rfl fun k _ => congrArg E (lift_cols _ p k)

/-- The partial product at (p, j). -/
theorem pay1_apply (v2 : Vec Ideal S1024x128 .f32) (v4 : Vec Ideal S1024x1024 .f32) (p : Fin 1024) (j : Fin 128) :
    k0_pay1 (F := Ideal) v2 v4 (ix2 p j) = ∑ q : Fin 1024, v4 (ix2 p q) * v2 (ix2 q j) := by
  unfold k0_pay1
  exact matmul_zero_apply _ dot1_plain none _ _ p j

/-- What the reset stores. -/
theorem pay2_apply (v2 : Vec Ideal S1024x128 .f32) (v4 : Vec Ideal S1024x1024 .f32) (p : Fin 1024) (j : Fin 128) :
    k0_pay2 (F := Ideal) v2 v4 (ix2 p j) = ∑ q : Fin 1024, v4 (ix2 p q) * v2 (ix2 q j) := by
  unfold k0_pay2
  exact (congrFun (shapeCast_self _ _) _).trans (pay1_apply v2 v4 p j)

/-- What the addition stores. -/
theorem pay3_apply (v2 : Vec Ideal S1024x128 .f32) (v4 : Vec Ideal S1024x1024 .f32) (v16 : Vec Ideal S1024x128 .f32) (p : Fin 1024) (j : Fin 128) :
    k0_pay3 (F := Ideal) v2 v4 v16 (ix2 p j) = v16 (ix2 p j) + ∑ q : Fin 1024, v4 (ix2 p q) * v2 (ix2 q j) := by
  unfold k0_pay3
  refine (congrFun (shapeCast_self _ _) _).trans ?_
  exact addf_of_eq _ _ _ rfl (pay1_apply v2 v4 p j)

/-- The stored logit at (p, j), given the accumulator's row `p`. -/
theorem pay4_apply (v16 : Vec Ideal S1024x128 .f32) (v17 : Vec Ideal S1x128 .f32) (v23 : Vec Ideal S128x64 .f32) (v25 : Vec Ideal S1x64 .f32)
    (v31 : Vec Ideal S64x64 .f32) (v33 : Vec Ideal S1x64 .f32) (p : Fin 1024) (j : Fin 64) (row : Fin 128 → EReal)
    (hrow : ∀ k, v16 (ix2 p k) = row k) :
    k0_pay4 (F := Ideal) v16 v17 v23 v25 v31 v33 (ix2 p j)
      = ∑ k : Fin 64, dense (fun k => max (row k + v17 (ix2 (0 : Fin 1) k)) 0) (fun k j => v23 (ix2 k j)) (fun j => v25 (ix2 (0 : Fin 1) j)) k
          * v31 (ix2 k j) + v33 (ix2 (0 : Fin 1) j) := by
  unfold k0_pay4
  refine addf_of_eq _ _ _ ?_ ?_
  · refine (matmul_zero_apply _ dot3_plain none _ _ p j).trans ?_
    refine Finset.sum_congr rfl fun k _ => congrArg (· * v31 (ix2 k j)) ?_
    refine (kernel_layer_apply _ dot2_plain none _ v23 _ _ p k
      (fun k => max (row k + v17 (ix2 (0 : Fin 1) k)) 0) (fun k' => layer1_apply v16 v17 p k' row hrow)).trans ?_
    rw [shapeCast_self]
  · exact (broadcastTo_1b_ab_apply _ _ p j).trans (congrFun (shapeCast_self _ _) _)

/-- The stored log-probability at (p, j): the kernel's arrangement over the stored logits' row. -/
theorem pay5_apply (v16 : Vec Ideal S1024x128 .f32) (v17 : Vec Ideal S1x128 .f32) (v23 : Vec Ideal S128x64 .f32) (v25 : Vec Ideal S1x64 .f32)
    (v31 : Vec Ideal S64x64 .f32) (v33 : Vec Ideal S1x64 .f32) (p : Fin 1024) (j : Fin 64) :
    k0_pay5 (F := Ideal) v16 v17 v23 v25 v31 v33 (ix2 p j)
      = Cert.Router.logProbK (fun k => k0_pay4 (F := Ideal) v16 v17 v23 v25 v31 v33 (ix2 p k)) j := by
  unfold k0_pay5 Cert.Router.logProbK Cert.Router.logSum
  generalize k0_pay4 (F := Ideal) v16 v17 v23 v25 v31 v33 = L
  refine subf_of_eq _ _ _ rfl ?_
  refine (broadcastTo_a1_ab_apply _ _ p j).trans ?_
  refine addf_of_eq _ _ _ ?_ (rowMax_keep_apply L p 0)
  show Ideal.log (shapeCast S1024x1 _ shapeCasts_S1024_S1024x1 (ix2 p (0 : Fin 1))) = _
  refine congrArg Ideal.log ((rowSum_keep_apply _ p 0).trans ?_)
  refine Finset.sum_congr rfl fun k _ => ?_
  show Ideal.exp (L (ix2 p k) - broadcastTo S1024x64 _ broadcasts_S1024x1_S1024x64 (ix2 p k)) = _
  exact congrArg (fun t => Ideal.exp (L (ix2 p k) - t))
    ((broadcastTo_a1_ab_apply _ _ p k).trans (rowMax_keep_apply L p 0))

end Cert.KernelIdeal.Pay

end
-- ==== Proof.IdealAccum.lean ====
/-
  The accumulator, point by point, and what the finishing points store.

  After point `t` the accumulator's entry (p, j) is the sum, in tile order, of the partial products of state row
  `1024·(t / 4) + p` with column `j` of the first weight matrix over column tiles 0 to `t % 4`: the reset starts the
  sum with tile 0, each later point of the row tile adds its own. At a finishing point all four tiles are in, so the
  accumulator row is the row's whole product, and the stored blocks are the logits and the log-probabilities of the
  rows of the tile.
-/
import proofs.«149963_g51273319579809_fold_wed_c4_702_21_alg».proof.Proof.IdealBlocks
import proofs.«149963_g51273319579809_fold_wed_c4_702_21_alg».proof.Proof.IdealPayloads

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Router Cert.LibDense Cert.KernelIdeal.Pay

variable (m : (ℓ : Loc nD τ sig) → Buf (Elt Ideal) ℓ)

/-! ## The argument arrays and the blocks at their literal types -/

abbrev aX (c : Dev nD) : FVec Ideal ⟨2, ![8192, 4096]⟩ .f32 := m ((c : Thread nD τ).loc main_arg0)
abbrev aW1 (c : Dev nD) : FVec Ideal ⟨2, ![4096, 128]⟩ .f32 := m ((c : Thread nD τ).loc main_arg1)
abbrev ab1 (c : Dev nD) : FVec Ideal ⟨1, ![128]⟩ .f32 := m ((c : Thread nD τ).loc main_arg2)
abbrev aW2 (c : Dev nD) : FVec Ideal ⟨2, ![128, 64]⟩ .f32 := m ((c : Thread nD τ).loc main_arg3)
abbrev ab2 (c : Dev nD) : FVec Ideal ⟨1, ![64]⟩ .f32 := m ((c : Thread nD τ).loc main_arg4)
abbrev aW3 (c : Dev nD) : FVec Ideal ⟨2, ![64, 64]⟩ .f32 := m ((c : Thread nD τ).loc main_arg5)
abbrev ab3 (c : Dev nD) : FVec Ideal ⟨1, ![64]⟩ .f32 := m ((c : Thread nD τ).loc main_arg6)

abbrev xblk (c : Dev nD) (t : Fin cfg0.N) : Vec Ideal S1024x1024 .f32 := iblk m c 0 t
abbrev w1blk (c : Dev nD) (t : Fin cfg0.N) : Vec Ideal S4096x128 .f32 := iblk m c 1 t
abbrev b1blk (c : Dev nD) (t : Fin cfg0.N) : Vec Ideal S1x128 .f32 := iblk m c 2 t
abbrev w2blk (c : Dev nD) (t : Fin cfg0.N) : Vec Ideal S128x64 .f32 := iblk m c 3 t
abbrev b2blk (c : Dev nD) (t : Fin cfg0.N) : Vec Ideal S1x64 .f32 := iblk m c 4 t
abbrev w3blk (c : Dev nD) (t : Fin cfg0.N) : Vec Ideal S64x64 .f32 := iblk m c 5 t
abbrev b3blk (c : Dev nD) (t : Fin cfg0.N) : Vec Ideal S1x64 .f32 := iblk m c 6 t

/-- The state row a tile's row `p` is, at point `t`. -/
abbrev rowOf (t : Fin cfg0.N) (hN : t.val < 32) (p : Fin 1024) : Fin 8192 := ⟨t.val / 4 * 1024 + p.val, by omega⟩

/-! ## The blocks' entries, over those names -/

theorem xblk_eq (c : Dev nD) (t : Fin cfg0.N) (hN : t.val < 32) (p q : Fin 1024) :
    xblk m c t (ix2 p q) = aX m c (ix2 (rowOf t hN p) ⟨t.val % 4 * 1024 + q.val, by omega⟩) := xblk_apply m c t hN p q
theorem w1blk_eq (c : Dev nD) (t : Fin cfg0.N) (a : Fin 4096) (j : Fin 128) : w1blk m c t (ix2 a j) = aW1 m c (ix2 a j) :=
  blk1_apply m c t a j
theorem b1blk_eq (c : Dev nD) (t : Fin cfg0.N) (k : Fin 128) : b1blk m c t (ix2 (0 : Fin 1) k) = ab1 m c (ix1 k) := blk2_apply m c t k
theorem w2blk_eq (c : Dev nD) (t : Fin cfg0.N) (a : Fin 128) (j : Fin 64) : w2blk m c t (ix2 a j) = aW2 m c (ix2 a j) :=
  blk3_apply m c t a j
theorem b2blk_eq (c : Dev nD) (t : Fin cfg0.N) (k : Fin 64) : b2blk m c t (ix2 (0 : Fin 1) k) = ab2 m c (ix1 k) := blk4_apply m c t k
theorem w3blk_eq (c : Dev nD) (t : Fin cfg0.N) (a : Fin 64) (j : Fin 64) : w3blk m c t (ix2 a j) = aW3 m c (ix2 a j) :=
  blk5_apply m c t a j
theorem b3blk_eq (c : Dev nD) (t : Fin cfg0.N) (k : Fin 64) : b3blk m c t (ix2 (0 : Fin 1) k) = ab3 m c (ix1 k) := blk6_apply m c t k

/-! ## A point's partial product -/

/-- The product of the point's state tile with its rows of the first weight matrix, at (p, j): the partial product of
    the state row over the point's column tile. -/
theorem part_apply (c : Dev nD) (t : Fin cfg0.N) (hN : t.val < 32) (p : Fin 1024) (j : Fin 128) :
    (∑ q : Fin 1024, xblk m c t (ix2 p q) * w1rows (grid0.coords t) (w1blk m c t) (ix2 q j))
      = tileN (aX m c) (aW1 m c) (rowOf t hN p) j (t.val % 4) := by
  unfold tileN
  rw [dif_pos (Nat.mod_lt _ (by decide))]
  unfold tileSum
  refine Finset.sum_congr rfl fun q _ => ?_
  rw [xblk_eq m c t hN p q, w1rows_apply t hN (w1blk m c t) q j, w1blk_eq m c t _ j]

/-! ## The accumulator after each point -/

theorem tiles_step (X : FVec Ideal ⟨2, ![8192, 4096]⟩ .f32) (W1 : FVec Ideal ⟨2, ![4096, 128]⟩ .f32) (j : Fin 128)
    (R R' : Fin 8192) (hR : R = R') (k k' : ℕ) (hk : k' = k + 1) :
    tilesUpTo X W1 R j k + tileN X W1 R' j k' = tilesUpTo X W1 R' j k' := by
  subst hR; subst hk; rfl

theorem acc_eq (c : Dev nD) : ∀ (n : ℕ) (h : n < cfg0.N) (p : Fin 1024) (j : Fin 128),
    (outsAt m c n h).2.2 (ix2 p j)
      = tilesUpTo (aX m c) (aW1 m c) (rowOf ⟨n, h⟩ (lt_of_lt_of_eq h N_0) p) j (n % 4)
  | 0, h, p, j => by
    rw [show outsAt m c 0 h = _ from outsAt_reset m c ⟨0, h⟩ (Nat.zero_mod 4)]
    dsimp only
    rw [resetAt_eq, pay2_apply]
    exact part_apply m c ⟨0, h⟩ (lt_of_lt_of_eq h N_0) p j
  | n + 1, h, p, j => by
    have hN : n + 1 < 32 := lt_of_lt_of_eq h N_0
    by_cases h0 : (n + 1) % 4 = 0
    · rw [show outsAt m c (n + 1) h = _ from outsAt_reset m c ⟨n + 1, h⟩ h0]
      dsimp only
      rw [resetAt_eq, pay2_apply]
      refine (part_apply m c ⟨n + 1, h⟩ hN p j).trans ?_
      show tileN _ _ _ j ((n + 1) % 4) = tilesUpTo _ _ _ j ((n + 1) % 4)
      rw [h0]
      rfl
    · have ih := acc_eq c n (Nat.lt_of_succ_lt h) p j
      have hR : rowOf ⟨n, Nat.lt_of_succ_lt h⟩ (lt_of_lt_of_eq (Nat.lt_of_succ_lt h) N_0) p = rowOf ⟨n + 1, h⟩ hN p :=
        Fin.ext (by show n / 4 * 1024 + p.val = (n + 1) / 4 * 1024 + p.val; omega)
      have hk : (n + 1) % 4 = n % 4 + 1 := by omega
      by_cases h3 : (n + 1) % 4 = 3
      · rw [show outsAt m c (n + 1) h = _ from outsAt_finish m c ⟨n + 1, h⟩ h0 h3]
        dsimp only
        rw [finishAt_eq, pay3_apply]
        show (outsAt m c n _).2.2 (ix2 p j) + _ = _
        rw [ih]
        refine (congrArg (_ + ·) (part_apply m c ⟨n + 1, h⟩ hN p j)).trans ?_
        exact tiles_step _ _ j _ _ hR _ _ hk
      · rw [show outsAt m c (n + 1) h = _ from outsAt_add m c ⟨n + 1, h⟩ h0 h3]
        dsimp only
        rw [addAt_eq, pay3_apply]
        show (outsAt m c n _).2.2 (ix2 p j) + _ = _
        rw [ih]
        refine (congrArg (_ + ·) (part_apply m c ⟨n + 1, h⟩ hN p j)).trans ?_
        exact tiles_step _ _ j _ _ hR _ _ hk

/-! ## What a finishing point stores -/

/-- At a finishing point the updated accumulator's row `p` is the whole product of its state row. -/
theorem accNew_apply (c : Dev nD) (t : Fin cfg0.N) (hN : t.val < 32) (h0 : ¬ t.val % 4 = 0) (h3 : t.val % 4 = 3) (p : Fin 1024) (k : Fin 128) :
    k0_pay3 (F := Ideal) (w1rows (grid0.coords t) (w1blk m c t)) (xblk m c t) (prevAcc m c t) (ix2 p k)
      = proj1 (aX m c) (aW1 m c) (rowOf t hN p) k := by
  have e := acc_eq m c t.val t.isLt p k
  rw [outsAt_finish m c t h0 h3] at e
  dsimp only at e
  rw [finishAt_eq] at e
  rw [e, h3]
  exact tilesUpTo_three _ _ _ _

/-- The stored logit at (p, j) is logit `j` of the state row. -/
theorem logitsAt_apply (c : Dev nD) (t : Fin cfg0.N) (hN : t.val < 32) (h0 : ¬ t.val % 4 = 0) (h3 : t.val % 4 = 3) (p : Fin 1024) (j : Fin 64) :
    logitsAt m c t h0 h3 (prevAcc m c t) (ix2 p j)
      = logit (aX m c) (aW1 m c) (ab1 m c) (aW2 m c) (ab2 m c) (aW3 m c) (ab3 m c) (rowOf t hN p) j := by
  rw [logitsAt_eq]
  rw [pay4_apply _ (b1blk m c t) (w2blk m c t) (b2blk m c t) (w3blk m c t) (b3blk m c t) p j
    (fun k => proj1 (aX m c) (aW1 m c) (rowOf t hN p) k) (fun k => accNew_apply m c t hN h0 h3 p k)]
  simp only [b1blk_eq m c t, w2blk_eq m c t, b2blk_eq m c t, w3blk_eq m c t, b3blk_eq m c t]
  rfl

/-- The stored log-probability at (p, j) is that of column `j` among the state row's logits, in the kernel's
    arrangement. -/
theorem logProbsAt_apply (c : Dev nD) (t : Fin cfg0.N) (hN : t.val < 32) (h0 : ¬ t.val % 4 = 0) (h3 : t.val % 4 = 3) (p : Fin 1024) (j : Fin 64) :
    logProbsAt m c t h0 h3 (prevAcc m c t) (ix2 p j)
      = logProbK (logit (aX m c) (aW1 m c) (ab1 m c) (aW2 m c) (ab2 m c) (aW3 m c) (ab3 m c) (rowOf t hN p)) j := by
  rw [logProbsAt_eq, pay5_apply]
  refine congrArg (fun l => logProbK l j) (funext fun k => ?_)
  have e := logitsAt_apply m c t hN h0 h3 p k
  rw [logitsAt_eq] at e
  exact e

end Cert.KernelIdeal.Body

end
-- ==== Proof.IdealArrays.lean ====
/-
  The two result arrays after the run.

  The finishing point of row tile `i` (point `4·i + 3`) writes back, into rows `1024·i` to `1024·i + 1023` of each
  result array, the block it stored; those eight blocks tile the array's 8192 rows, so each result array ends
  holding, at every row, that row's logits and log-probabilities.
-/
import proofs.«149963_g51273319579809_fold_wed_c4_702_21_alg».proof.Proof.IdealAccum

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Router Cert.LibDense

variable (m : (ℓ : Loc nD τ sig) → Buf (Elt Ideal) ℓ) (ρ : Dev nD → PrngReg)

/-- An index of the logits array is in point `t`'s block iff each coordinate is in the block's range on its axis. -/
theorem mem_blk7 (t : Fin cfg0.N) (i : S8192x64.Idx) :
    i ∈ ((cfg0.win 7).blk t).view.set ↔ ∀ a : Fin 2, win0_7.index t a * S1024x64.size a ≤ (i a).val ∧ (i a).val < win0_7.index t a * S1024x64.size a + S1024x64.size a := by
  show i ∈ ((View.whole main_v3_0).slice (win0_7.rect t)).set ↔ _
  rw [View.set_slice_whole, Rect.mem_set_unit]
  exact Iff.rfl

/-- What a finishing point writes back is its block of the logits of every row. -/
theorem flushed7_eq (c : Dev nD) (t : Fin cfg0.N) (hf : (cfg0.win 7).flush t = true) :
    (dats m 0 c).flushed 7 t = ((cfg0.win 7).blk t).view.read (Elt Ideal) (logitsArr (aX m c) (aW1 m c) (ab1 m c) (aW2 m c) (ab2 m c) (aW3 m c) (ab3 m c)) := by
  have hN : t.val < 32 := lt_of_lt_of_eq t.isLt N_0
  have h3 : t.val % 4 = 3 := (flush0_7 t).mp hf
  have h0 : ¬ t.val % 4 = 0 := by omega
  have hi := idx_o7 t
  show (cfg0.win 7).cut (grid0.coords t) ((dats m 0 c).after 7 t) = _
  rw [after_7, outsAt_finish m c t h0 h3]
  dsimp only
  funext y
  obtain ⟨p, j, rfl⟩ : ∃ (p : Fin 1024) (j : Fin 64), y = ix2 p j := ⟨y 0, y 1, eq_ix2 y⟩
  refine (logitsAt_apply m c t hN h0 h3 p j).trans ?_
  rw [View.read_apply]
  have hR : rowOf t hN p = (((cfg0.win 7).blk t).view.emb (ix2 p j)) 0 :=
    Fin.ext (by show t.val / 4 * 1024 + p.val = win0_7.index t (0 : Fin 2) * 1024 + 1 * p.val; rw [hi.1]; omega)
  have hj : j = (((cfg0.win 7).blk t).view.emb (ix2 p j)) 1 :=
    Fin.ext (by show j.val = win0_7.index t (1 : Fin 2) * 64 + 1 * j.val; rw [hi.2]; omega)
  show _ = logitsArr (aX m c) (aW1 m c) (ab1 m c) (aW2 m c) (ab2 m c) (aW3 m c) (ab3 m c) (((cfg0.win 7).blk t).view.emb (ix2 p j))
  unfold logitsArr
  rw [← hR, ← hj]

/-- Every index of the array is in the block of the finishing point of its row tile. -/
theorem cover_o7 (i : S8192x64.Idx) : ∃ t : Fin cfg0.N, (cfg0.win 7).flush t = true ∧ i ∈ ((cfg0.win 7).blk t).view.set := by
  have hi0 : (i 0).val < 8192 := (i 0).isLt
  have hi1 : (i 1).val < 64 := (i 1).isLt
  have hNN : cfg0.N = 32 := N_0
  have ht : (i 0).val / 1024 * 4 + 3 < cfg0.N := by rw [hNN]; omega
  have hi := idx_o7 ⟨(i 0).val / 1024 * 4 + 3, ht⟩
  refine ⟨⟨(i 0).val / 1024 * 4 + 3, ht⟩, (flush0_7 _).mpr (by show ((i 0).val / 1024 * 4 + 3) % 4 = 3; omega), ?_⟩
  rw [mem_blk7]
  intro a
  match a with
  | ⟨0, _⟩ =>
    show win0_7.index ⟨(i 0).val / 1024 * 4 + 3, ht⟩ (0 : Fin 2) * 1024 ≤ (i 0).val
      ∧ (i 0).val < win0_7.index ⟨(i 0).val / 1024 * 4 + 3, ht⟩ (0 : Fin 2) * 1024 + 1024
    rw [hi.1]
    show ((i 0).val / 1024 * 4 + 3) / 4 * 1024 ≤ (i 0).val ∧ (i 0).val < ((i 0).val / 1024 * 4 + 3) / 4 * 1024 + 1024
    omega
  | ⟨1, _⟩ =>
    show win0_7.index ⟨(i 0).val / 1024 * 4 + 3, ht⟩ (1 : Fin 2) * 64 ≤ (i 1).val
      ∧ (i 1).val < win0_7.index ⟨(i 0).val / 1024 * 4 + 3, ht⟩ (1 : Fin 2) * 64 + 64
    rw [hi.2]
    omega

/-- So the array ends holding the logits of every row. -/
theorem final7 (c : Dev nD) : (dats m 0 c).arrAt 7 cfg0.N = logitsArr (aX m c) (aW1 m c) (ab1 m c) (aW2 m c) (ab2 m c) (aW3 m c) (ab3 m c) :=
  (dats m 0 c).arrAt_eq_of_cover 7 _ (flushed7_eq m c) cover_o7

/-- An index of the log-probabilities array is in point `t`'s block iff each coordinate is in the block's range on its axis. -/
theorem mem_blk8 (t : Fin cfg0.N) (i : S8192x64.Idx) :
    i ∈ ((cfg0.win 8).blk t).view.set ↔ ∀ a : Fin 2, win0_8.index t a * S1024x64.size a ≤ (i a).val ∧ (i a).val < win0_8.index t a * S1024x64.size a + S1024x64.size a := by
  show i ∈ ((View.whole main_v3_1).slice (win0_8.rect t)).set ↔ _
  rw [View.set_slice_whole, Rect.mem_set_unit]
  exact Iff.rfl

/-- What a finishing point writes back is its block of the log-probabilities of every row. -/
theorem flushed8_eq (c : Dev nD) (t : Fin cfg0.N) (hf : (cfg0.win 8).flush t = true) :
    (dats m 0 c).flushed 8 t = ((cfg0.win 8).blk t).view.read (Elt Ideal) (logProbsArrK (aX m c) (aW1 m c) (ab1 m c) (aW2 m c) (ab2 m c) (aW3 m c) (ab3 m c)) := by
  have hN : t.val < 32 := lt_of_lt_of_eq t.isLt N_0
  have h3 : t.val % 4 = 3 := (flush0_8 t).mp hf
  have h0 : ¬ t.val % 4 = 0 := by omega
  have hi := idx_o8 t
  show (cfg0.win 8).cut (grid0.coords t) ((dats m 0 c).after 8 t) = _
  rw [after_8, outsAt_finish m c t h0 h3]
  dsimp only
  funext y
  obtain ⟨p, j, rfl⟩ : ∃ (p : Fin 1024) (j : Fin 64), y = ix2 p j := ⟨y 0, y 1, eq_ix2 y⟩
  refine (logProbsAt_apply m c t hN h0 h3 p j).trans ?_
  rw [View.read_apply]
  have hR : rowOf t hN p = (((cfg0.win 8).blk t).view.emb (ix2 p j)) 0 :=
    Fin.ext (by show t.val / 4 * 1024 + p.val = win0_8.index t (0 : Fin 2) * 1024 + 1 * p.val; rw [hi.1]; omega)
  have hj : j = (((cfg0.win 8).blk t).view.emb (ix2 p j)) 1 :=
    Fin.ext (by show j.val = win0_8.index t (1 : Fin 2) * 64 + 1 * j.val; rw [hi.2]; omega)
  show _ = logProbsArrK (aX m c) (aW1 m c) (ab1 m c) (aW2 m c) (ab2 m c) (aW3 m c) (ab3 m c) (((cfg0.win 8).blk t).view.emb (ix2 p j))
  unfold logProbsArrK
  rw [← hR, ← hj]

/-- Every index of the array is in the block of the finishing point of its row tile. -/
theorem cover_o8 (i : S8192x64.Idx) : ∃ t : Fin cfg0.N, (cfg0.win 8).flush t = true ∧ i ∈ ((cfg0.win 8).blk t).view.set := by
  have hi0 : (i 0).val < 8192 := (i 0).isLt
  have hi1 : (i 1).val < 64 := (i 1).isLt
  have hNN : cfg0.N = 32 := N_0
  have ht : (i 0).val / 1024 * 4 + 3 < cfg0.N := by rw [hNN]; omega
  have hi := idx_o8 ⟨(i 0).val / 1024 * 4 + 3, ht⟩
  refine ⟨⟨(i 0).val / 1024 * 4 + 3, ht⟩, (flush0_8 _).mpr (by show ((i 0).val / 1024 * 4 + 3) % 4 = 3; omega), ?_⟩
  rw [mem_blk8]
  intro a
  match a with
  | ⟨0, _⟩ =>
    show win0_8.index ⟨(i 0).val / 1024 * 4 + 3, ht⟩ (0 : Fin 2) * 1024 ≤ (i 0).val
      ∧ (i 0).val < win0_8.index ⟨(i 0).val / 1024 * 4 + 3, ht⟩ (0 : Fin 2) * 1024 + 1024
    rw [hi.1]
    show ((i 0).val / 1024 * 4 + 3) / 4 * 1024 ≤ (i 0).val ∧ (i 0).val < ((i 0).val / 1024 * 4 + 3) / 4 * 1024 + 1024
    omega
  | ⟨1, _⟩ =>
    show win0_8.index ⟨(i 0).val / 1024 * 4 + 3, ht⟩ (1 : Fin 2) * 64 ≤ (i 1).val
      ∧ (i 1).val < win0_8.index ⟨(i 0).val / 1024 * 4 + 3, ht⟩ (1 : Fin 2) * 64 + 64
    rw [hi.2]
    omega

/-- So the array ends holding the log-probabilities of every row. -/
theorem final8 (c : Dev nD) : (dats m 0 c).arrAt 8 cfg0.N = logProbsArrK (aX m c) (aW1 m c) (ab1 m c) (aW2 m c) (ab2 m c) (aW3 m c) (ab3 m c) :=
  (dats m 0 c).arrAt_eq_of_cover 8 _ (flushed8_eq m c) cover_o8

/-- The run, read: the first result the logits of every row, the second their log-probabilities in the kernel's
    arrangement, the seven arguments unchanged. -/
theorem run : θ_run defs (onTc (τ := τ) (main (F := Ideal))) ⟨m, fun _ => 0, ρ⟩ fun r => ∀ c : Dev nD,
      r.2.mem ((c.tc : Thread nD τ).loc main_v3_0) = logitsArr (aX m c) (aW1 m c) (ab1 m c) (aW2 m c) (ab2 m c) (aW3 m c) (ab3 m c)
      ∧ r.2.mem ((c.tc : Thread nD τ).loc main_v3_1) = logProbsArrK (aX m c) (aW1 m c) (ab1 m c) (aW2 m c) (ab2 m c) (aW3 m c) (ab3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).1 7).trans (final7 m c), ((h c).1 8).trans (final8 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).2 main_arg6 (Pipeline.mem_restRefs_of main_arg6 (by decide) (by decide))).trans (V_main_arg6 m c)⟩)
    (run_main m ρ)

end Cert.KernelIdeal.Body

end
-- ==== Proof.RefReads.lean ====
/-
  The reference program's run, read back: each of its two results as the specification's function of the arguments.

  The reference computes the three dense layers over all 8192 rows at once and then jax's log_softmax, which subtracts
  the row maximum first and the logarithm of the sum of exponentials second.
-/
import proofs.«149963_g51273319579809_fold_wed_c4_702_21_alg».proof.Proof.RefRead
import proofs.«149963_g51273319579809_fold_wed_c4_702_21_alg».proof.Proof.Router

noncomputable section

namespace Cert.RefSide

open Cert.ReferenceIdeal Idealize.ShloMosaic Idealize.ShloMosaic.TcCoe Idealize.SL.Sem Idealize.ShloMosaic.ValueIdx

/-! ## The three products are rows-by-columns products -/

/-- The first product's dimension numbers are the rows-by-columns ones. -/
theorem dot1_plain : dot_S8192x4096_S4096x128_S8192x128_1_0_0_1_n_n = DotDims.plain 8192 4096 128 := rfl
/-- So are the second's. -/
theorem dot2_plain : dot_S8192x128_S128x64_S8192x64_1_0_0_1_n_n = DotDims.plain 8192 128 64 := rfl
/-- So are the third's. -/
theorem dot3_plain : dot_S8192x64_S64x64_S8192x64_1_0_0_1_n_n = DotDims.plain 8192 64 64 := rfl

/-- The f32 word of minus infinity is the bottom of the extended reals. -/
theorem negInf_bits : Ideal.ofBits .f32 0xFF800000#32 = ⊥ := by simp [Ideal.ofBits, Ideal.ieee]

/-! ## A row's maximum -/

/-- A maximum over the columns of a 8192 × 64 array from an initial value that is minus infinity, read at row `r`:
    the fold of `max` from `⊥` over the row's entries. -/
theorem rowMax_read (y : FVec Ideal ⟨2, ![8192, 64]⟩ .f32) (init : FVec Ideal ⟨0, ![]⟩ .f32) (hinit : ∀ i, init i = ⊥)
    (h' : (⟨2, ![8192, 64]⟩ : Shape).ReducesTo [1] ⟨1, ![8192]⟩) (hu : 0 < (⟨0, ![]⟩ : Shape).numel)
    (r : Fin 8192) (l : Fin 64 → EReal) (hl : ∀ k, y (ix2 r k) = l k) :
    Host.reduce FloatOps.maximumf y init h' hu (ix1 r) = Cert.Router.rowMax l := by
  have h : (⟨2, ![8192, 64]⟩ : Shape).Reduces [1] ⟨1, ![8192]⟩ := by decide
  rw [Host.reduce_eq_fold_single FloatOps.maximumf y init h' h hu (ix1 r), hinit]
  unfold Cert.Router.rowMax
  have e : (y ∘ h.lift (ix1 r) : Fin 64 → EReal) = l := funext fun k => by
    rw [← hl k]
    exact congrArg y (funext fun a => Fin.ext (by match a with | ⟨0, _⟩ => rfl | ⟨1, _⟩ => rfl))
  exact congrArg (fun f : Fin 64 → EReal => (Finset.univ : Finset (Fin 64)).fold max ⊥ f) e

/-! ## The stages of the reference, read at a row and a column -/

section Reads

variable (x0 : FVec Ideal ⟨2, ![8192, 4096]⟩ .f32) (x1 : FVec Ideal ⟨2, ![4096, 128]⟩ .f32) (x2 : FVec Ideal ⟨1, ![128]⟩ .f32)
  (x3 : FVec Ideal ⟨2, ![128, 64]⟩ .f32) (x4 : FVec Ideal ⟨1, ![64]⟩ .f32)
  (x5 : FVec Ideal ⟨2, ![64, 64]⟩ .f32) (x6 : FVec Ideal ⟨1, ![64]⟩ .f32)

/-- The first layer's result at (r, j) is entry `j` of the first hidden row of row `r`. -/
theorem hidden1_read (r : Fin 8192) (j : Fin 128) :
    ReadP.val_main_v4 (F := Ideal) x0 x1 x2 (ix2 r j) = Cert.Router.hidden1 x0 x1 x2 r j := by
  unfold ReadP.val_main_v4 ReadP.val_main_v3 ReadP.val_main_v0 ReadP.val_main_v2 ReadP.val_main_v1 ReadP.val_main_call0_v0
    ReadP.val_main_call0_cst Cert.Router.hidden1
  exact Cert.LibDense.host_layer_apply _ dot1_plain none x0 x1 x2 _ _ _ r j _ (fun _ => rfl)

/-- The second layer's result at (r, j) is entry `j` of the second hidden row of row `r`. -/
theorem hidden2_read (r : Fin 8192) (j : Fin 64) :
    ReadP.val_main_v9 (F := Ideal) x0 x1 x2 x3 x4 (ix2 r j) = Cert.Router.hidden2 x0 x1 x2 x3 x4 r j := by
  unfold ReadP.val_main_v9 ReadP.val_main_v8 ReadP.val_main_v5 ReadP.val_main_v7 ReadP.val_main_v6 ReadP.val_main_call1_v0
    ReadP.val_main_call1_cst Cert.Router.hidden2
  exact Cert.LibDense.host_layer_apply _ dot2_plain none (ReadP.val_main_v4 (F := Ideal) x0 x1 x2) x3 x4 _ _ _ r j _
    (fun k => hidden1_read x0 x1 x2 r k)

/-- The third layer's result at (r, j) is logit `j` of row `r`. -/
theorem logit_read (r : Fin 8192) (j : Fin 64) :
    ReadP.val_main_v13 (F := Ideal) x0 x1 x2 x3 x4 x5 x6 (ix2 r j) = Cert.Router.logit x0 x1 x2 x3 x4 x5 x6 r j := by
  have el : ∀ k : Fin 64, ReadP.lidx_main_v10 (ix2 r j) k = ix2 r k := fun k => funext fun a => by
    match a with | ⟨0, _⟩ => rfl | ⟨1, _⟩ => rfl
  have er : ∀ k : Fin 64, ReadP.ridx_main_v10 (ix2 r j) k = ix2 k j := fun k => funext fun a => by
    match a with | ⟨0, _⟩ => rfl | ⟨1, _⟩ => rfl
  have eb : ReadP.idx_main_v11 (ReadP.idx_main_v12 (ix2 r j)) = ix1 j := funext fun a => by
    match a with | ⟨0, _⟩ => rfl
  rw [ReadP.val_main_v13_apply, ReadP.val_main_v10_apply, ReadP.val_main_v12_apply, ReadP.val_main_v11_apply, eb]
  unfold Cert.Router.logit
  simp only [el, er, hidden2_read]
  rfl

/-- The row maximum the reference takes, at row `r`, is the maximum of the row's logits. -/
theorem max_read (r : Fin 8192) :
    ReadP.val_main_call2_v2 (F := Ideal) x0 x1 x2 x3 x4 x5 x6 (ix1 r)
      = Cert.Router.rowMax (Cert.Router.logit x0 x1 x2 x3 x4 x5 x6 r) := by
  rw [ReadP.val_main_call2_v2_apply, ReadP.val_main_call2_v1_apply, ReadP.val_main_call2_cst_0_apply]
  unfold ReadP.val_main_call2_v0
  rw [rowMax_read _ (ReadP.val_main_call2_cst (F := Ideal)) (fun _ => negInf_bits) _ _ r _ (fun k => logit_read x0 x1 x2 x3 x4 x5 x6 r k)]
  show max (Ideal.ofBits .f32 0xFF800000#32) _ = _
  rw [negInf_bits, max_bot_left]

/-- The logits less their row's maximum. -/
theorem shifted_read (r : Fin 8192) (j : Fin 64) :
    ReadP.val_main_call2_v5 (F := Ideal) x0 x1 x2 x3 x4 x5 x6 (ix2 r j)
      = Cert.Router.logit x0 x1 x2 x3 x4 x5 x6 r j - Cert.Router.rowMax (Cert.Router.logit x0 x1 x2 x3 x4 x5 x6 r) := by
  have e : ReadP.idx_main_call2_v3 (ReadP.idx_main_call2_v4 (ix2 r j)) = ix1 r := funext fun a => by
    match a with | ⟨0, _⟩ => rfl
  rw [ReadP.val_main_call2_v5_apply, ReadP.val_main_call2_v4_apply, ReadP.val_main_call2_v3_apply, e, max_read, logit_read]
  rfl

/-- The logarithm of the row's sum of exponentials, laid along the row. -/
theorem logSum_read (r : Fin 8192) (j : Fin 64) :
    ReadP.val_main_call2_v10 (F := Ideal) x0 x1 x2 x3 x4 x5 x6 (ix2 r j)
      = Cert.Router.logSum (Cert.Router.logit x0 x1 x2 x3 x4 x5 x6 r) := by
  have e : ReadP.idx_main_call2_v8 (ReadP.idx_main_call2_v10 (ix2 r j)) = ix1 r := funext fun a => by
    match a with | ⟨0, _⟩ => rfl
  have e7 : ∀ k : Fin 64, ReadP.idx_main_call2_v7 (ix1 r) k = ix2 r k := fun k => funext fun a => by
    match a with | ⟨0, _⟩ => rfl | ⟨1, _⟩ => rfl
  rw [ReadP.val_main_call2_v10_apply, ReadP.val_main_call2_v9_apply, ReadP.val_main_call2_v8_apply, e,
    ReadP.val_main_call2_v7_apply, ReadP.val_main_call2_cst_1_apply]
  simp only [e7, ReadP.val_main_call2_v6_apply, shifted_read]
  unfold Cert.Router.logSum
  show Ideal.log (Ideal.ofBits .f32 0x00000000#32 + _) = _
  rw [Ideal.ofBits_zero_f32, zero_add]
  rfl

/-- The second result at (r, j) is the log-probability of column `j` among row `r`'s logits. -/
theorem logProb_read (r : Fin 8192) (j : Fin 64) :
    ReadP.val_main_v14 (F := Ideal) x0 x1 x2 x3 x4 x5 x6 (ix2 r j)
      = Cert.Router.logProbR (Cert.Router.logit x0 x1 x2 x3 x4 x5 x6 r) j := by
  rw [ReadP.val_main_v14_apply, shifted_read, logSum_read]
  rfl

/-- The first result is the array of logits. -/
theorem logits_eq : ReadP.val_main_v13 (F := Ideal) x0 x1 x2 x3 x4 x5 x6 = Cert.Router.logitsArr x0 x1 x2 x3 x4 x5 x6 := by
  funext i
  obtain ⟨r, j, rfl⟩ : ∃ (r : Fin 8192) (j : Fin 64), i = ix2 r j := ⟨i 0, i 1, eq_ix2 i⟩
  exact logit_read x0 x1 x2 x3 x4 x5 x6 r j

/-- The second result is the array of log-probabilities, in the reference's arrangement. -/
theorem logProbs_eq : ReadP.val_main_v14 (F := Ideal) x0 x1 x2 x3 x4 x5 x6 = Cert.Router.logProbsArrR x0 x1 x2 x3 x4 x5 x6 := by
  funext i
  obtain ⟨r, j, rfl⟩ : ∃ (r : Fin 8192) (j : Fin 64), i = ix2 r j := ⟨i 0, i 1, eq_ix2 i⟩
  exact logProb_read x0 x1 x2 x3 x4 x5 x6 r j

end Reads

/-! ## The run -/

/-- Every weakly fair execution of the reference terminates with its first result the logits of every row, its
    second their log-probabilities in the reference's arrangement, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13)
          = Cert.Router.logitsArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v14)
          = Cert.Router.logProbsArrR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run (defs (F := Ideal)) _ _).mono (fun _ h c => ⟨(h c).1.trans ?_, (h c).2.1.trans ?_, (h c).2.2⟩)
    (Cert.ReferenceIdeal.ValueP.run (F := Ideal) m ρ)
  · exact (ReadP.val_main_v13_eq _ _ _ _ _ _ _).trans (logits_eq _ _ _ _ _ _ _)
  · exact (ReadP.val_main_v14_eq m c).trans (logProbs_eq _ _ _ _ _ _ _)

end Cert.RefSide

end
-- ==== Proof.FiniteInputs.lean ====
/-
  The precondition, read: each of the seven argument arrays holds only real numbers.

  The printed predicate is the conjunction, over the arrays, of "every entry's absolute value is below +inf"; an
  extended real whose absolute value is below +inf is neither +inf nor -inf.
-/
import proofs.«149963_g51273319579809_fold_wed_c4_702_21_alg».proof.Proof.Router
import proofs.«149963_g51273319579809_fold_wed_c4_702_21_alg».proof.Proof.Gen.Pre_finite_inputs
import Idealize.ShloMosaic.Lib.ReduceAll

noncomputable section

namespace Cert.Router

open Idealize.ShloMosaic Idealize.ShloMosaic.ValueIdx

/-- On the extended reals the absolute value of `a` is `max a (-a)`. If it is below `+∞`, then `a` is a real number:
    at `+∞` the maximum is `+∞` by its left argument, at `-∞` by its right one. -/
theorem fin_of_abs_lt_top (a : EReal) (h : max a (-a) < ⊤) : Fin' a := by
  induction a using EReal.rec with
  | bot => simp at h
  | top => simp at h
  | coe r => exact ⟨EReal.coe_ne_top r, EReal.coe_ne_bot r⟩

/-- The word `0x7F800000` is the single-precision `+∞`. -/
theorem ofBits_inf : Ideal.ofBits .f32 0x7F800000#32 = ⊤ := by simp [Ideal.ofBits, Ideal.ieee]

/-- One entry of the predicate: the comparison `|a| < +∞`, when it answers 1, says that `a` is a real number. -/
theorem fin_of_abs_olt_inf (a : Ideal .f32)
    (h : FloatOps.cmpf .olt (FloatOps.hostAbsf a) (FloatOps.ofBits (F := Ideal) .f32 0x7F800000#32) = 1#1) : Fin' a := by
  change Ideal.cmp .olt (max (a : EReal) (-(a : EReal))) (Ideal.ofBits .f32 0x7F800000#32) = 1#1 at h
  rw [ofBits_inf] at h
  unfold Ideal.cmp at h
  by_cases hlt : max (a : EReal) (-(a : EReal)) < ⊤
  · exact fin_of_abs_lt_top a hlt
  · simp [hlt] at h

/-- The scalar shape has one index. -/
instance : Subsingleton Cert.Pre_finite_inputs.S_.Idx := ⟨fun a b => funext fun d => d.elim0⟩

/-- One conjunct of the predicate, for an array of any shape: the conjunction over all entries of `|x i| < +∞`
    (the bound a scalar constant broadcast to the array's shape) is 1 only if every entry is a real number. -/
theorem fin_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ix0 = 1#1) :
    ∀ i, Fin' (x i) := fun i =>
  fin_of_abs_olt_inf (x i) (Host.reduce_andi_all _ _ hr hu ix0 e i)

/-- If the precondition's predicate is all ones on seven arrays, every entry of each is a real number. -/
theorem fin_of_pre [Cert.Pre_finite_inputs.Facts]
    (a0 : FVec Ideal ⟨2, ![8192, 4096]⟩ .f32) (a1 : FVec Ideal ⟨2, ![4096, 128]⟩ .f32) (a2 : FVec Ideal ⟨1, ![128]⟩ .f32)
    (a3 : FVec Ideal ⟨2, ![128, 64]⟩ .f32) (a4 : FVec Ideal ⟨1, ![64]⟩ .f32)
    (a5 : FVec Ideal ⟨2, ![64, 64]⟩ .f32) (a6 : FVec Ideal ⟨1, ![64]⟩ .f32)
    (h : Cert.Pre_finite_inputs.fn (F := Ideal) a0 a1 a2 a3 a4 a5 a6 = (fun _ => 1#1)) :
    (∀ i, Fin' (a0 i)) ∧ (∀ i, Fin' (a1 i)) ∧ (∀ i, Fin' (a2 i)) ∧ (∀ i, Fin' (a3 i)) ∧ (∀ i, Fin' (a4 i)) ∧ (∀ i, Fin' (a5 i))
      ∧ (∀ i, Fin' (a6 i)) := by
  have e := congrFun h ix0
  unfold Cert.Pre_finite_inputs.fn Cert.Pre_finite_inputs.fn_part1 at e
  dsimp only at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fin_of_all a0 _ _ _ e0, fin_of_all a1 _ _ _ e1, fin_of_all a2 _ _ _ e2, fin_of_all a3 _ _ _ e3,
    fin_of_all a4 _ _ _ e4, fin_of_all a5 _ _ _ e5, fin_of_all a6 _ _ _ e6⟩

end Cert.Router

end
-- ==== Proof.lean ====
/-
  The certificate of the fused router kernel against its jnp reference.

  Both programs compute, for each of the 8192 rows of the state array, two dense layers with ReLU, a third dense
  layer giving 64 logits, and the logits' log-probabilities. The kernel walks the state array in tiles of 1024 rows
  by 1024 columns, accumulating each row tile's product with the first weight matrix over its four column tiles and
  finishing the row tile at the last of them; on the extended reals that tile-ordered sum is the row's whole product,
  so the kernel's logits are the reference's. The kernel subtracts the row's log-sum-exp from a logit in one step,
  the reference subtracts the row maximum and then the logarithm; for finite inputs the logits are finite and the two
  agree. The word-level kernel and the idealized one are one text (the idealization rewrote nothing), and each runs to
  the end leaving its arguments unchanged; so does the reference.
-/
import proofs.«149963_g51273319579809_fold_wed_c4_702_21_alg».proof.Defs
import proofs.«149963_g51273319579809_fold_wed_c4_702_21_alg».proof.Proof.BitsFrame
import proofs.«149963_g51273319579809_fold_wed_c4_702_21_alg».proof.Proof.IdealArrays
import proofs.«149963_g51273319579809_fold_wed_c4_702_21_alg».proof.Proof.RefReads
import proofs.«149963_g51273319579809_fold_wed_c4_702_21_alg».proof.Proof.RouterLaws
import proofs.«149963_g51273319579809_fold_wed_c4_702_21_alg».proof.Proof.FiniteInputs
import proofs.«149963_g51273319579809_fold_wed_c4_702_21_alg».proof.Proof.Gen.Kernel
import proofs.«149963_g51273319579809_fold_wed_c4_702_21_alg».proof.Proof.Gen.KernelIdeal
import proofs.«149963_g51273319579809_fold_wed_c4_702_21_alg».proof.Proof.Gen.ReferenceIdeal
import proofs.«149963_g51273319579809_fold_wed_c4_702_21_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel runs to the end and leaves its arguments unchanged. -/
theorem frame_k : Cert.frame_Kernel := fun m ρ _ => Cert.Kernel.Body.frame m ρ

/-- So does the idealized kernel. -/
theorem frame_ki : Cert.frame_KernelIdeal := fun m ρ _ => Cert.KernelIdeal.Body.frame m ρ

/-- So does the reference: its run with the two results dropped. -/
theorem frame_ri : Cert.frame_ReferenceIdeal := fun m ρ _ =>
  (θ_run Cert.ReferenceIdeal.defs _ _).mono (fun _ h c => (h c).2.2) (Cert.RefSide.run m ρ)

/-- The idealization rewrote no operation. -/
theorem preserves : Cert.preserves_Kernel_KernelIdeal := trivial

/-- From memories agreeing on the arguments both idealized programs end with the logits of every row and their
    log-probabilities: the kernel's arrangement of the log-probabilities and the reference's agree because finite
    inputs give finite logits. -/
theorem algebraic : Cert.algebraic_KernelIdeal_ReferenceIdeal := by
  intro m ρ m' ρ' hpre hagree
  refine ⟨fun c => Cert.Router.logitsArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Router.logProbsArrK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Body.run m ρ, ?_⟩
  refine (θ_run Cert.ReferenceIdeal.defs _ _).mono (fun _ h c => ⟨(h c).1.trans ?_, (h c).2.1.trans ?_, (h c).2.2⟩)
    (Cert.RefSide.run m' ρ')
  · rw [(hagree c).1, (hagree c).2.1, (hagree c).2.2.1, (hagree c).2.2.2.1, (hagree c).2.2.2.2.1, (hagree c).2.2.2.2.2.1,
      (hagree c).2.2.2.2.2.2]
  · rw [(hagree c).1, (hagree c).2.1, (hagree c).2.2.1, (hagree c).2.2.2.1, (hagree c).2.2.2.2.1, (hagree c).2.2.2.2.2.1,
      (hagree c).2.2.2.2.2.2]
    obtain ⟨f0, f1, f2, f3, f4, f5, f6⟩ := Cert.Router.fin_of_pre _ _ _ _ _ _ _ (hpre c)
    exact Cert.Router.logProbsArr_eq _ _ _ _ _ _ _ f0 f1 f2 f3 f4 f5 f6

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
